-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x32 : Shape := ⟨2, ![2000000, 32]⟩
abbrev S2000000x16 : Shape := ⟨2, ![2000000, 16]⟩
abbrev S1024x16 : Shape := ⟨2, ![1024, 16]⟩
abbrev S2000000 : Shape := ⟨1, ![2000000]⟩
abbrev S96x32 : Shape := ⟨2, ![96, 32]⟩
abbrev S32 : Shape := ⟨1, ![32]⟩
abbrev S32x32 : Shape := ⟨2, ![32, 32]⟩
abbrev S_ : Shape := ⟨0, ![]⟩

class Facts : Prop where
  bcast_S_S2000000x32 : S_.BroadcastsInDim S2000000x32 (![] : Fin 0 → Fin S2000000x32.rank)
  reducesTo_S2000000x32_S_d0_1 : S2000000x32.ReducesTo [0, 1] S_
  h_S_ : 0 < S_.numel
  bcast_S_S2000000x16 : S_.BroadcastsInDim S2000000x16 (![] : Fin 0 → Fin S2000000x16.rank)
  reducesTo_S2000000x16_S_d0_1 : S2000000x16.ReducesTo [0, 1] S_
  bcast_S_S1024x16 : S_.BroadcastsInDim S1024x16 (![] : Fin 0 → Fin S1024x16.rank)
  reducesTo_S1024x16_S_d0_1 : S1024x16.ReducesTo [0, 1] S_
  bcast_S_S96x32 : S_.BroadcastsInDim S96x32 (![] : Fin 0 → Fin S96x32.rank)
  reducesTo_S96x32_S_d0_1 : S96x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S2000000 : S_.BroadcastsInDim S2000000 (![] : Fin 0 → Fin S2000000.rank)
  reducesTo_S2000000_S_d0 : S2000000.ReducesTo [0] S_

variable [Facts]

def fn_part3 {F : FTy → Type} [FloatOps F] (main_arg4 : IVec S2000000 32) (main_v48 : IVec S_ 1) (main_v50 : IVec S2000000 1) : IVec S_ 1 :=
  let main_c_19 : IVec S_ 1 := constantI S_ 1 1#1
  let main_v51 : IVec S_ 1 := (fun x v => Host.reduce IntOp.andi x v reducesTo_S2000000_S_d0 h_S_) main_v50 main_c_19
  let main_v52 : IVec S_ 1 := andi main_v48 main_v51
  let main_c_20 : IVec S_ 32 := constantI S_ 32 1024#32
  let main_v53 : IVec S2000000 32 := broadcastInDim S2000000 ![] bcast_S_S2000000 main_c_20
  let main_v54 : IVec S2000000 1 := cmpi .slt main_arg4 main_v53
  let main_c_21 : IVec S_ 1 := constantI S_ 1 1#1
  let main_v55 : IVec S_ 1 := (fun x v => Host.reduce IntOp.andi x v reducesTo_S2000000_S_d0 h_S_) main_v54 main_c_21
  let main_v56 : IVec S_ 1 := andi main_v52 main_v55
  main_v56

def fn_part2 {F : FTy → Type} [FloatOps F] (main_arg4 : IVec S2000000 32) (main_arg8 : FVec F S32 .f32) (main_arg9 : FVec F S32x32 .f32) (main_arg10 : FVec F S32 .f32) (main_v33 : IVec S_ 1) : IVec S_ 1 :=
  let main_v34 : FVec F S32 .f32 := Host.absf main_arg8
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x32 .f32 := Host.absf main_arg9
  let main_cst_14 : FVec F S_ .f32 := constant S_ .f32 0x7F800000#32
  let main_v40 : FVec F S32x32 .f32 := broadcastInDim S32x32 ![] bcast_S_S32x32 main_cst_14
  let main_v41 : IVec S32x32 1 := cmpf .olt main_v39 main_v40
  let main_c_15 : IVec S_ 1 := constantI S_ 1 1#1
  let main_v42 : IVec S_ 1 := (fun x v => Host.reduce IntOp.andi x v reducesTo_S32x32_S_d0_1 h_S_) main_v41 main_c_15
  let main_v43 : IVec S_ 1 := andi main_v38 main_v42
  let main_v44 : FVec F S32 .f32 := Host.absf main_arg10
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_c_18 : IVec S_ 32 := constantI S_ 32 0#32
  let main_v49 : IVec S2000000 32 := broadcastInDim S2000000 ![] bcast_S_S2000000 main_c_18
  let main_v50 : IVec S2000000 1 := cmpi .sge main_arg4 main_v49
  fn_part3 (F := F) main_arg4 main_v48 main_v50

def fn_part1 {F : FTy → Type} [FloatOps F] (main_arg4 : IVec S2000000 32) (main_arg5 : FVec F S96x32 .f32) (main_arg6 : FVec F S32 .f32) (main_arg7 : FVec F S32 .f32) (main_arg8 : FVec F S32 .f32) (main_arg9 : FVec F S32x32 .f32) (main_arg10 : FVec F S32 .f32) (main_v13 : IVec S_ 1) (main_v16 : IVec S1024x16 1) : IVec S_ 1 :=
  let main_c_5 : IVec S_ 1 := constantI S_ 1 1#1
  let main_v17 : IVec S_ 1 := (fun x v => Host.reduce IntOp.andi x v reducesTo_S1024x16_S_d0_1 h_S_) main_v16 main_c_5
  let main_v18 : IVec S_ 1 := andi main_v13 main_v17
  let main_v19 : FVec F S96x32 .f32 := Host.absf main_arg5
  let main_cst_6 : FVec F S_ .f32 := constant S_ .f32 0x7F800000#32
  let main_v20 : FVec F S96x32 .f32 := broadcastInDim S96x32 ![] bcast_S_S96x32 main_cst_6
  let main_v21 : IVec S96x32 1 := cmpf .olt main_v19 main_v20
  let main_c_7 : IVec S_ 1 := constantI S_ 1 1#1
  let main_v22 : IVec S_ 1 := (fun x v => Host.reduce IntOp.andi x v reducesTo_S96x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg4 main_arg8 main_arg9 main_arg10 main_v33

def fn {F : FTy → Type} [FloatOps F] (main_arg0 : FVec F S2000000x32 .f32) (main_arg1 : FVec F S2000000x32 .f32) (main_arg2 : FVec F S2000000x16 .f32) (main_arg3 : FVec F S1024x16 .f32) (main_arg4 : IVec S2000000 32) (main_arg5 : FVec F S96x32 .f32) (main_arg6 : FVec F S32 .f32) (main_arg7 : FVec F S32 .f32) (main_arg8 : FVec F S32 .f32) (main_arg9 : FVec F S32x32 .f32) (main_arg10 : FVec F S32 .f32) : IVec S_ 1 :=
  let main_v0 : FVec F S2000000x32 .f32 := Host.absf main_arg0
  let main_cst : FVec F S_ .f32 := constant S_ .f32 0x7F800000#32
  let main_v1 : FVec F S2000000x32 .f32 := broadcastInDim S2000000x32 ![] bcast_S_S2000000x32 main_cst
  let main_v2 : IVec S2000000x32 1 := cmpf .olt main_v0 main_v1
  let main_c : IVec S_ 1 := constantI S_ 1 1#1
  let main_v3 : IVec S_ 1 := (fun x v => Host.reduce IntOp.andi x v reducesTo_S2000000x32_S_d0_1 h_S_) main_v2 main_c
  let main_v4 : FVec F S2000000x32 .f32 := Host.absf main_arg1
  let main_cst_0 : FVec F S_ .f32 := constant S_ .f32 0x7F800000#32
  let main_v5 : FVec F S2000000x32 .f32 := broadcastInDim S2000000x32 ![] bcast_S_S2000000x32 main_cst_0
  let main_v6 : IVec S2000000x32 1 := cmpf .olt main_v4 main_v5
  let main_c_1 : IVec S_ 1 := constantI S_ 1 1#1
  let main_v7 : IVec S_ 1 := (fun x v => Host.reduce IntOp.andi x v reducesTo_S2000000x32_S_d0_1 h_S_) main_v6 main_c_1
  let main_v8 : IVec S_ 1 := andi main_v3 main_v7
  let main_v9 : FVec F S2000000x16 .f32 := Host.absf main_arg2
  let main_cst_2 : FVec F S_ .f32 := constant S_ .f32 0x7F800000#32
  let main_v10 : FVec F S2000000x16 .f32 := broadcastInDim S2000000x16 ![] bcast_S_S2000000x16 main_cst_2
  let main_v11 : IVec S2000000x16 1 := cmpf .olt main_v9 main_v10
  let main_c_3 : IVec S_ 1 := constantI S_ 1 1#1
  let main_v12 : IVec S_ 1 := (fun x v => Host.reduce IntOp.andi x v reducesTo_S2000000x16_S_d0_1 h_S_) main_v11 main_c_3
  let main_v13 : IVec S_ 1 := andi main_v8 main_v12
  let main_v14 : FVec F S1024x16 .f32 := Host.absf main_arg3
  let main_cst_4 : FVec F S_ .f32 := constant S_ .f32 0x7F800000#32
  let main_v15 : FVec F S1024x16 .f32 := broadcastInDim S1024x16 ![] bcast_S_S1024x16 main_cst_4
  let main_v16 : IVec S1024x16 1 := cmpf .olt main_v14 main_v15
  fn_part1 (F := F) main_arg4 main_arg5 main_arg6 main_arg7 main_arg8 main_arg9 main_arg10 main_v13 main_v16
-- ==== Kernel.lean ====
abbrev S2000000x32 : Shape := ⟨2, ![2000000, 32]⟩
abbrev S2000000x16 : Shape := ⟨2, ![2000000, 16]⟩
abbrev S1024x16 : Shape := ⟨2, ![1024, 16]⟩
abbrev S2000000 : Shape := ⟨1, ![2000000]⟩
abbrev S96x32 : Shape := ⟨2, ![96, 32]⟩
abbrev S32 : Shape := ⟨1, ![32]⟩
abbrev S32x32 : Shape := ⟨2, ![32, 32]⟩
abbrev S2000000x1 : Shape := ⟨2, ![2000000, 1]⟩
abbrev S1x32 : Shape := ⟨2, ![1, 32]⟩
abbrev S4000x32 : Shape := ⟨2, ![4000, 32]⟩
abbrev S4000x16 : Shape := ⟨2, ![4000, 16]⟩
abbrev S4000x1 : Shape := ⟨2, ![4000, 1]⟩
abbrev S4000x1024 : Shape := ⟨2, ![4000, 1024]⟩
abbrev S4000x96 : Shape := ⟨2, ![4000, 96]⟩
abbrev S_ : Shape := ⟨0, ![]⟩

abbrev nBuf : Space → Nat
  | .hbm => 38
  | .vmem => 23
  | .smem => 0
  | _ => 0

abbrev bufTy : (tb : Table) → Fin (tcTables nBuf tb) → BufTy
  | .hbm, ⟨0, _⟩ => ⟨S2000000x32, .f32⟩
  | .hbm, ⟨1, _⟩ => ⟨S2000000x32, .f32⟩
  | .hbm, ⟨2, _⟩ => ⟨S2000000x16, .f32⟩
  | .hbm, ⟨3, _⟩ => ⟨S1024x16, .f32⟩
  | .hbm, ⟨4, _⟩ => ⟨S2000000, .i32⟩
  | .hbm, ⟨5, _⟩ => ⟨S96x32, .f32⟩
  | .hbm, ⟨6, _⟩ => ⟨S32, .f32⟩
  | .hbm, ⟨7, _⟩ => ⟨S32, .f32⟩
  | .hbm, ⟨8, _⟩ => ⟨S32, .f32⟩
  | .hbm, ⟨9, _⟩ => ⟨S32x32, .f32⟩
  | .hbm, ⟨10, _⟩ => ⟨S32, .f32⟩
  | .hbm, ⟨11, _⟩ => ⟨S2000000x1, .i32⟩
  | .hbm, ⟨12, _⟩ => ⟨S1x32, .f32⟩
  | .hbm, ⟨13, _⟩ => ⟨S2000000x32, .f32⟩
  | .hbm, ⟨14, _⟩ => ⟨S1x32, .f32⟩
  | .hbm, ⟨15, _⟩ => ⟨S1x32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S32, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S32, .f32⟩
  | .hbm, ⟨29, _⟩ => ⟨S32, .f32⟩
  | .hbm, ⟨30, _⟩ => ⟨S32, .f32⟩
  | .hbm, ⟨31, _⟩ => ⟨S1x32, .f32⟩
  | .hbm, ⟨32, _⟩ => ⟨S32, .f32⟩
  | .hbm, ⟨33, _⟩ => ⟨S32, .f32⟩
  | .hbm, ⟨34, _⟩ => ⟨S32, .f32⟩
  | .hbm, ⟨35, _⟩ => ⟨S1x32, .f32⟩
  | .hbm, ⟨36, _⟩ => ⟨S1x32, .f32⟩
  | .hbm, ⟨37, _⟩ => ⟨S2000000x32, .f32⟩
  | .local _ .vmem, ⟨0, _⟩ => ⟨S4000x32, .f32⟩
  | .local _ .vmem, ⟨1, _⟩ => ⟨S4000x32, .f32⟩
  | .local _ .vmem, ⟨2, _⟩ => ⟨S4000x32, .f32⟩
  | .local _ .vmem, ⟨3, _⟩ => ⟨S4000x32, .f32⟩
  | .local _ .vmem, ⟨4, _⟩ => ⟨S4000x16, .f32⟩
  | .local _ .vmem, ⟨5, _⟩ => ⟨S4000x16, .f32⟩
  | .local _ .vmem, ⟨6, _⟩ => ⟨S4000x1, .i32⟩
  | .local _ .vmem, ⟨7, _⟩ => ⟨S4000x1, .i32⟩
  | .local _ .vmem, ⟨8, _⟩ => ⟨S1024x16, .f32⟩
  | .local _ .vmem, ⟨9, _⟩ => ⟨S96x32, .f32⟩
  | .local _ .vmem, ⟨10, _⟩ => ⟨S1x32, .f32⟩
  | .local _ .vmem, ⟨11, _⟩ => ⟨S4000x32, .f32⟩
  | .local _ .vmem, ⟨12, _⟩ => ⟨S4000x32, .f32⟩
  | .local _ .vmem, ⟨13, _⟩ => ⟨S1x32, .f32⟩
  | .local _ .vmem, ⟨14, _⟩ => ⟨S1x32, .f32⟩
  | .local _ .vmem, ⟨15, _⟩ => ⟨S4000x32, .f32⟩
  | .local _ .vmem, ⟨16, _⟩ => ⟨S4000x32, .f32⟩
  | .local _ .vmem, ⟨17, _⟩ => ⟨S1x32, .f32⟩
  | .local _ .vmem, ⟨18, _⟩ => ⟨S1x32, .f32⟩
  | .local _ .vmem, ⟨19, _⟩ => ⟨S32x32, .f32⟩
  | .local _ .vmem, ⟨20, _⟩ => ⟨S1x32, .f32⟩
  | .local _ .vmem, ⟨21, _⟩ => ⟨S4000x32, .f32⟩
  | .local _ .vmem, ⟨22, _⟩ => ⟨S4000x32, .f32⟩
  | _, _ => ⟨S2000000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2_0 : Ref sig .tc := ⟨.hbm, 13, rfl⟩
abbrev main_v2_1 : Ref sig .tc := ⟨.hbm, 14, rfl⟩
abbrev main_v2_2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg5_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc1_sem0_0 : DmaSem sig := 15
abbrev cc1_sem0_1 : DmaSem sig := 16
abbrev cc1_sem1_0 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem5_1 : DmaSem sig := 22

abbrev nD : Nat := 1
abbrev τ : Topo := Topo.v7x

variable {F : FTy → Type} [FloatOps F]

abbrev grid0 : Pipeline.Grid := ⟨1, ![500], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S96x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4000x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev grid1 : Pipeline.Grid := ⟨1, ![500], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S2000000_S2000000x1 : S2000000.ShapeCasts S2000000x1
  shapeCasts_S32_S1x32 : S32.ShapeCasts S1x32
  inb_S1x32_S1x32_0_0 : ∀ a, (![0, 0] : Fin 2 → Nat) a + S1x32.size a ≤ S1x32.size a
  h_S1x32 : 0 < S1x32.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  iota_S4000x1024_d1_w32 : S4000x1024.Iotas .tc 32 [1]
  broadcasts_S4000x1_S4000x1024 : S4000x1.Broadcasts S4000x1024
  natLt_1_32 : 1 < 32
  bitsLt_bf16_f32 : FTy.bits .bf16 < FTy.bits .f32
  inb_S1024x16_S1024x16_0_0 : ∀ a, (![0, 0] : Fin 2 → Nat) a + S1024x16.size a ≤ S1024x16.size a
  h_S1024x16 : 0 < S1024x16.numel
  inb_S4000x32_S4000x32_0_0 : ∀ a, (![0, 0] : Fin 2 → Nat) a + S4000x32.size a ≤ S4000x32.size a
  h_S4000x32 : 0 < S4000x32.numel
  inb_S4000x16_S4000x16_0_0 : ∀ a, (![0, 0] : Fin 2 → Nat) a + S4000x16.size a ≤ S4000x16.size a
  h_S4000x16 : 0 < S4000x16.numel
  concatenates_S4000x32_S4000x32_S4000x16_S4000x16_S4000x96_d1 : Shape.Concatenates [S4000x32, S4000x32, S4000x16, S4000x16] S4000x96 1
  inb_S96x32_S96x32_0_0 : ∀ a, (![0, 0] : Fin 2 → Nat) a + S96x32.size a ≤ S96x32.size a
  h_S96x32 : 0 < S96x32.numel
  shapeCasts_S1x32_S1x32 : S1x32.ShapeCasts S1x32
  broadcasts_S1x32_S4000x32 : S1x32.Broadcasts S4000x32
  reduces_S4000x32_S32 : S4000x32.Reduces [0] S32
  shapeCasts_S1x32_S32 : S1x32.ShapeCasts S32
  bcast_S_S32 : S_.BroadcastsInDim S32 (![] : Fin 0 → Fin S32.rank)
  shapeCasts_S4000x32_S4000x32 : S4000x32.ShapeCasts S4000x32
  inb_S32x32_S32x32_0_0 : ∀ a, (![0, 0] : Fin 2 → Nat) a + S32x32.size a ≤ S32x32.size a
  h_S32x32 : 0 < S32x32.numel
  dot_S4000x1024_S1024x16_S4000x16_1_0_0_1_n_n_wf : DotDims.WF S4000x1024 S1024x16 S4000x16 [1] [0] [0] [1] [] []
  dot_S4000x96_S96x32_S4000x32_1_0_0_1_n_n_wf : DotDims.WF S4000x96 S96x32 S4000x32 [1] [0] [0] [1] [] []
  dot_S4000x32_S32x32_S4000x32_1_0_0_1_n_n_wf : DotDims.WF S4000x32 S32x32 S4000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x32.size a ≤ S2000000x32.size a
  hwx0_0 : ∀ i : grid0.Coords, EltTy.bits .f32 = 32 ∨ (Rect.block (s := S2000000x32) S4000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x32.size a ≤ S2000000x32.size a
  hwx0_1 : ∀ i : grid0.Coords, EltTy.bits .f32 = 32 ∨ (Rect.block (s := S2000000x32) S4000x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x16.size a ≤ S2000000x16.size a
  hwx0_2 : ∀ i : grid0.Coords, EltTy.bits .f32 = 32 ∨ (Rect.block (s := S2000000x16) S4000x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x1.size a ≤ S2000000x1.size a
  hwx0_3 : ∀ i : grid0.Coords, EltTy.bits .i32 = 32 ∨ (Rect.block (s := S2000000x1) S4000x1.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x16.size a ≤ S1024x16.size a
  hwx0_4 : ∀ i : grid0.Coords, EltTy.bits .f32 = 32 ∨ (Rect.block (s := S1024x16) S1024x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S96x32.size a ≤ S96x32.size a
  hwx0_5 : ∀ i : grid0.Coords, EltTy.bits .f32 = 32 ∨ (Rect.block (s := S96x32) S96x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x32.size a ≤ S2000000x32.size a
  hwx0_7 : ∀ i : grid0.Coords, EltTy.bits .f32 = 32 ∨ (Rect.block (s := S2000000x32) S4000x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x32.size a ≤ S1x32.size a
  hwx0_8 : ∀ i : grid0.Coords, EltTy.bits .f32 = 32 ∨ (Rect.block (s := S1x32) S1x32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x32.size a ≤ S1x32.size a
  hwx0_9 : ∀ i : grid0.Coords, EltTy.bits .f32 = 32 ∨ (Rect.block (s := S1x32) S1x32.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x32.size a ≤ S2000000x32.size a
  hwx1_0 : ∀ i : grid1.Coords, EltTy.bits .f32 = 32 ∨ (Rect.block (s := S2000000x32) S4000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x32.size a ≤ S32x32.size a
  hwx1_3 : ∀ i : grid1.Coords, EltTy.bits .f32 = 32 ∨ (Rect.block (s := S32x32) S32x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x32.size a ≤ S2000000x32.size a
  hwx1_5 : ∀ i : grid1.Coords, EltTy.bits .f32 = 32 ∨ (Rect.block (s := S2000000x32) S4000x32.size (cc1_transform_5 i) (hinb1_5 i)).WholeWords (EltTy.packing .f32)

variable [Facts₀]

def dot_S4000x1024_S1024x16_S4000x16_1_0_0_1_n_n : DotDims S4000x1024 S1024x16 S4000x16 where
  lhsContracting := [1]
  rhsContracting := [0]
  lhsNonContracting := [0]
  rhsNonContracting := [1]
  lhsBatch := []
  rhsBatch := []
  wf := dot_S4000x1024_S1024x16_S4000x16_1_0_0_1_n_n_wf
def dot_S4000x96_S96x32_S4000x32_1_0_0_1_n_n : DotDims S4000x96 S96x32 S4000x32 where
  lhsContracting := [1]
  rhsContracting := [0]
  lhsNonContracting := [0]
  rhsNonContracting := [1]
  lhsBatch := []
  rhsBatch := []
  wf := dot_S4000x96_S96x32_S4000x32_1_0_0_1_n_n_wf
def dot_S4000x32_S32x32_S4000x32_1_0_0_1_n_n : DotDims S4000x32 S32x32 S4000x32 where
  lhsContracting := [1]
  rhsContracting := [0]
  lhsNonContracting := [0]
  rhsNonContracting := [1]
  lhsBatch := []
  rhsBatch := []
  wf := dot_S4000x32_S32x32_S4000x32_1_0_0_1_n_n_wf

abbrev win0_0 : Pipeline.Window sig grid0 :=
  Pipeline.Window.ofSpec (Memref.whole main_arg0) S4000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4000x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S4000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S1024x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S96x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2_0) S4000x32.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v2_1) S1x32.size cc0_transform_8 reads0_8 true true 1 stage0_8 sem0_8
    hrank0 hreads0_8 hinb0_8 nbuf0_8 (Memref.isWhole_whole _) hwx0_8 hstage0_8

abbrev win0_9 : Pipeline.Window sig grid0 :=
  Pipeline.Window.ofSpec (Memref.whole main_v2_2) S1x32.size cc0_transform_9 reads0_9 true true 1 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v2_0) S4000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v19) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S32x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v20) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v21) S4000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S2000000x32 : Shape := ⟨2, ![2000000, 32]⟩
abbrev S2000000x16 : Shape := ⟨2, ![2000000, 16]⟩
abbrev S1024x16 : Shape := ⟨2, ![1024, 16]⟩
abbrev S2000000 : Shape := ⟨1, ![2000000]⟩
abbrev S96x32 : Shape := ⟨2, ![96, 32]⟩
abbrev S32 : Shape := ⟨1, ![32]⟩
abbrev S32x32 : Shape := ⟨2, ![32, 32]⟩
abbrev S_ : Shape := ⟨0, ![]⟩
abbrev S2000000x1 : Shape := ⟨2, ![2000000, 1]⟩
abbrev S2000000x96 : Shape := ⟨2, ![2000000, 96]⟩
abbrev S1x32 : Shape := ⟨2, ![1, 32]⟩

abbrev nBuf : Space → Nat
  | .hbm => 62
  | .vmem => 0
  | .smem => 0
  | _ => 0

abbrev bufTy : (tb : Table) → Fin (tcTables nBuf tb) → BufTy
  | .hbm, ⟨0, _⟩ => ⟨S2000000x32, .f32⟩
  | .hbm, ⟨1, _⟩ => ⟨S2000000x32, .f32⟩
  | .hbm, ⟨2, _⟩ => ⟨S2000000x16, .f32⟩
  | .hbm, ⟨3, _⟩ => ⟨S1024x16, .f32⟩
  | .hbm, ⟨4, _⟩ => ⟨S2000000, .i32⟩
  | .hbm, ⟨5, _⟩ => ⟨S96x32, .f32⟩
  | .hbm, ⟨6, _⟩ => ⟨S32, .f32⟩
  | .hbm, ⟨7, _⟩ => ⟨S32, .f32⟩
  | .hbm, ⟨8, _⟩ => ⟨S32, .f32⟩
  | .hbm, ⟨9, _⟩ => ⟨S32x32, .f32⟩
  | .hbm, ⟨10, _⟩ => ⟨S32, .f32⟩
  | .hbm, ⟨11, _⟩ => ⟨S_, .i32⟩
  | .hbm, ⟨12, _⟩ => ⟨S2000000, .i32⟩
  | .hbm, ⟨13, _⟩ => ⟨S2000000, .i1⟩
  | .hbm, ⟨14, _⟩ => ⟨S_, .i32⟩
  | .hbm, ⟨15, _⟩ => ⟨S2000000, .i32⟩
  | .hbm, ⟨16, _⟩ => ⟨S2000000, .i32⟩
  | .hbm, ⟨17, _⟩ => ⟨S2000000, .i32⟩
  | .hbm, ⟨18, _⟩ => ⟨S2000000x1, .i32⟩
  | .hbm, ⟨19, _⟩ => ⟨S2000000x16, .f32⟩
  | .hbm, ⟨20, _⟩ => ⟨S2000000x96, .f32⟩
  | .hbm, ⟨21, _⟩ => ⟨S2000000x32, .f32⟩
  | .hbm, ⟨22, _⟩ => ⟨S1x32, .f32⟩
  | .hbm, ⟨23, _⟩ => ⟨S2000000x32, .f32⟩
  | .hbm, ⟨24, _⟩ => ⟨S2000000x32, .f32⟩
  | .hbm, ⟨25, _⟩ => ⟨S_, .f32⟩
  | .hbm, ⟨26, _⟩ => ⟨S2000000x32, .f32⟩
  | .hbm, ⟨27, _⟩ => ⟨S2000000x32, .f32⟩
  | .hbm, ⟨28, _⟩ => ⟨S_, .f32⟩
  | .hbm, ⟨29, _⟩ => ⟨S32, .f32⟩
  | .hbm, ⟨30, _⟩ => ⟨S_, .f32⟩
  | .hbm, ⟨31, _⟩ => ⟨S32, .f32⟩
  | .hbm, ⟨32, _⟩ => ⟨S32, .f32⟩
  | .hbm, ⟨33, _⟩ => ⟨S1x32, .f32⟩
  | .hbm, ⟨34, _⟩ => ⟨S2000000x32, .f32⟩
  | .hbm, ⟨35, _⟩ => ⟨S2000000x32, .f32⟩
  | .hbm, ⟨36, _⟩ => ⟨S2000000x32, .f32⟩
  | .hbm, ⟨37, _⟩ => ⟨S_, .f32⟩
  | .hbm, ⟨38, _⟩ => ⟨S32, .f32⟩
  | .hbm, ⟨39, _⟩ => ⟨S_, .f32⟩
  | .hbm, ⟨40, _⟩ => ⟨S32, .f32⟩
  | .hbm, ⟨41, _⟩ => ⟨S32, .f32⟩
  | .hbm, ⟨42, _⟩ => ⟨S1x32, .f32⟩
  | .hbm, ⟨43, _⟩ => ⟨S2000000x32, .f32⟩
  | .hbm, ⟨44, _⟩ => ⟨S2000000x32, .f32⟩
  | .hbm, ⟨45, _⟩ => ⟨S_, .f32⟩
  | .hbm, ⟨46, _⟩ => ⟨S32, .f32⟩
  | .hbm, ⟨47, _⟩ => ⟨S32, .f32⟩
  | .hbm, ⟨48, _⟩ => ⟨S32, .f32⟩
  | .hbm, ⟨49, _⟩ => ⟨S1x32, .f32⟩
  | .hbm, ⟨50, _⟩ => ⟨S2000000x32, .f32⟩
  | .hbm, ⟨51, _⟩ => ⟨S2000000x32, .f32⟩
  | .hbm, ⟨52, _⟩ => ⟨S1x32, .f32⟩
  | .hbm, ⟨53, _⟩ => ⟨S2000000x32, .f32⟩
  | .hbm, ⟨54, _⟩ => ⟨S2000000x32, .f32⟩
  | .hbm, ⟨55, _⟩ => ⟨S1x32, .f32⟩
  | .hbm, ⟨56, _⟩ => ⟨S2000000x32, .f32⟩
  | .hbm, ⟨57, _⟩ => ⟨S2000000x32, .f32⟩
  | .hbm, ⟨58, _⟩ => ⟨S2000000x32, .f32⟩
  | .hbm, ⟨59, _⟩ => ⟨S1x32, .f32⟩
  | .hbm, ⟨60, _⟩ => ⟨S2000000x32, .f32⟩
  | .hbm, ⟨61, _⟩ => ⟨S2000000x32, .f32⟩
  | _, _ => ⟨S2000000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_call0_cst : Ref sig .tc := ⟨.hbm, 25, rfl⟩
abbrev main_call0_v0 : Ref sig .tc := ⟨.hbm, 26, rfl⟩
abbrev main_v12 : Ref sig .tc := ⟨.hbm, 27, rfl⟩
abbrev main_cst : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_4 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩

abbrev nD : Nat := 1
abbrev τ : Topo := Topo.v7x

variable {F : FTy → Type} [FloatOps F]

class Facts₀ : Prop where
  bcast_S_S2000000 : S_.BroadcastsInDim S2000000 (![] : Fin 0 → Fin S2000000.rank)
  bcast_S2000000_S2000000x1_0 : S2000000.BroadcastsInDim S2000000x1 (![0] : Fin 1 → Fin S2000000x1.rank)
  concatenates_S2000000x32_S2000000x32_S2000000x16_S2000000x16_S2000000x96_d1 : Shape.Concatenates [S2000000x32, S2000000x32, S2000000x16, S2000000x16] S2000000x96 1
  bcast_S32_S1x32_1 : S32.BroadcastsInDim S1x32 (![1] : Fin 1 → Fin S1x32.rank)
  bcast_S1x32_S2000000x32_0_1 : S1x32.BroadcastsInDim S2000000x32 (![0, 1] : Fin 2 → Fin S2000000x32.rank)
  bcast_S_S2000000x32 : S_.BroadcastsInDim S2000000x32 (![] : Fin 0 → Fin S2000000x32.rank)
  reducesTo_S2000000x32_S32_d0 : S2000000x32.ReducesTo [0] S32
  h_S_ : 0 < S_.numel
  bcast_S_S32 : S_.BroadcastsInDim S32 (![] : Fin 0 → Fin S32.rank)
  gather_S1024x16_S2000000x1_S2000000x16_1_0_n_n_0_1_116_wf : GatherDims.WF S1024x16 S2000000x1 S2000000x16 [1] [0] [] [0] [] 1 ![1, 16]
  dot_S2000000x96_S96x32_S2000000x32_1_0_0_1_n_n_wf : DotDims.WF S2000000x96 S96x32 S2000000x32 [1] [0] [0] [1] [] []
  dot_S2000000x32_S32x32_S2000000x32_1_0_0_1_n_n_wf : DotDims.WF S2000000x32 S32x32 S2000000x32 [1] [0] [0] [1] [] []

variable [Facts₀]

def gather_S1024x16_S2000000x1_S2000000x16_1_0_n_n_0_1_116 : GatherDims S1024x16 S2000000x1 S2000000x16 where
  offsetDims := [1]
  collapsedSliceDims := [0]
  operandBatchingDims := []
  startIndicesBatchingDims := []
  startIndexMap := [0]
  indexVectorDim := 1
  sliceSizes := ![1, 16]
  wf := gather_S1024x16_S2000000x1_S2000000x16_1_0_n_n_0_1_116_wf
def dot_S2000000x96_S96x32_S2000000x32_1_0_0_1_n_n : DotDims S2000000x96 S96x32 S2000000x32 where
  lhsContracting := [1]
  rhsContracting := [0]
  lhsNonContracting := [0]
  rhsNonContracting := [1]
  lhsBatch := []
  rhsBatch := []
  wf := dot_S2000000x96_S96x32_S2000000x32_1_0_0_1_n_n_wf
def dot_S2000000x32_S32x32_S2000000x32_1_0_0_1_n_n : DotDims S2000000x32 S32x32 S2000000x32 where
  lhsContracting := [1]
  rhsContracting := [0]
  lhsNonContracting := [0]
  rhsNonContracting := [1]
  lhsBatch := []
  rhsBatch := []
  wf := dot_S2000000x32_S32x32_S2000000x32_1_0_0_1_n_n_wf

class Facts : Prop extends Facts₀ where

variable [Facts]
-- ==== Proof.Spec.lean ====
/-
  The mathematics of the edge block, stated once over the extended reals and over no program.

  Inputs: per edge e (2,000,000 of them) a source row and a destination row of width 32 and an attribute row of width 16;
  a table u of 1024 rows of width 16 and, per edge, the index batch e of the row of u that belongs to it; a first linear
  layer W1 (96 × 32), b1; batch-norm parameters gamma, beta; a second linear layer W2 (32 × 32), b2.

    x e      = src e ++ dest e ++ edge e ++ u (batch e)                      (width 96)
    h e j    = max (Σ_k x e k · W1 k j + b1 j) 0
    mean j   = (Σ_e h e j) / E
  and then two ways of writing the normalised layer:
    kernel order     var j = (Σ_e h e j²) / E − mean j²,   y e j = h e j · (gamma j · r j) + (beta j − mean j · gamma j · r j)
    reference order  var j = (Σ_e (h e j − mean j)²) / E,  y e j = (h e j − mean j) · r j · gamma j + beta j
  with r j = rsqrt (var j + eps), and out e o = Σ_j y e j · W2 j o + b2 o.
  The two orders agree when every input is a real number: both variances are the same real, it is ≥ 0, so r j is a
  real and the two affine forms are one by distributivity.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The argument arrays, as functions of an index into their literal shapes. -/
structure Inputs where
  src : (⟨2, ![2000000, 32]⟩ : Shape).Idx → EReal
  dest : (⟨2, ![2000000, 32]⟩ : Shape).Idx → EReal
  edge : (⟨2, ![2000000, 16]⟩ : Shape).Idx → EReal
  u : (⟨2, ![1024, 16]⟩ : Shape).Idx → EReal
  batch : (⟨1, ![2000000]⟩ : Shape).Idx → BitVec 32
  W1 : (⟨2, ![96, 32]⟩ : Shape).Idx → EReal
  b1 : (⟨1, ![32]⟩ : Shape).Idx → EReal
  gamma : (⟨1, ![32]⟩ : Shape).Idx → EReal
  beta : (⟨1, ![32]⟩ : Shape).Idx → EReal
  W2 : (⟨2, ![32, 32]⟩ : Shape).Idx → EReal
  b2 : (⟨1, ![32]⟩ : Shape).Idx → EReal

/-- Every float entry is a real number, and every index is a row of the table. -/
structure Inputs.Ok (I : Inputs) : Prop where
  src : ∀ i, ∃ r : ℝ, I.src i = (r : EReal)
  dest : ∀ i, ∃ r : ℝ, I.dest i = (r : EReal)
  edge : ∀ i, ∃ r : ℝ, I.edge i = (r : EReal)
  u : ∀ i, ∃ r : ℝ, I.u i = (r : EReal)
  W1 : ∀ i, ∃ r : ℝ, I.W1 i = (r : EReal)
  b1 : ∀ i, ∃ r : ℝ, I.b1 i = (r : EReal)
  gamma : ∀ i, ∃ r : ℝ, I.gamma i = (r : EReal)
  beta : ∀ i, ∃ r : ℝ, I.beta i = (r : EReal)
  W2 : ∀ i, ∃ r : ℝ, I.W2 i = (r : EReal)
  b2 : ∀ i, ∃ r : ℝ, I.b2 i = (r : EReal)
  batch : ∀ i, 0 ≤ (I.batch i).toInt ∧ (I.batch i).toInt < 1024

variable (I : Inputs)

/-- The row of the table edge `e` points at (its index read signed and clamped into the table, which changes
    nothing for an index that is a row). -/
def row (e : Fin 2000000) : Fin 1024 := ⟨min (I.batch (ix1 e)).toInt.toNat 1023, by omega⟩

/-- The concatenated feature row of edge `e`. -/
def x (e : Fin 2000000) (k : Fin 96) : EReal :=
  if h0 : k.val < 32 then I.src (ix2 e ⟨k.val, h0⟩)
  else if h1 : k.val < 64 then I.dest (ix2 e ⟨k.val - 32, by omega⟩)
  else if h2 : k.val < 80 then I.edge (ix2 e ⟨k.val - 64, by omega⟩)
  else I.u (ix2 (row I e) ⟨k.val - 80, by omega⟩)

/-- The hidden layer after the rectifier. -/
def h (e : Fin 2000000) (j : Fin 32) : EReal :=
  max ((∑ k : Fin 96, x I e k * I.W1 (ix2 k j)) + I.b1 (ix1 j)) 0

/-- Edge number `4000 · t + r`: row `r` of tile `t`. -/
def edgeOf (t : Fin 500) (r : Fin 4000) : Fin 2000000 := ⟨4000 * t.val + r.val, by omega⟩

/-- Column sums of one tile of 4000 edges (of `h`, and of its square). -/
def tileSum (t : Fin 500) (j : Fin 32) : EReal := ∑ r : Fin 4000, h I (edgeOf t r) j
def tileSumSq (t : Fin 500) (j : Fin 32) : EReal := ∑ r : Fin 4000, h I (edgeOf t r) j * h I (edgeOf t r) j

/-- The running column sums in the order the tiles are visited: zero plus tile 0, then each next tile added on the
    right. (Past the last tile the value is not used.) -/
def acc : ℕ → Fin 32 → EReal
  | 0, j => 0 + tileSum I ⟨0, by omega⟩ j
  | n + 1, j => acc n j + (if hn : n + 1 < 500 then tileSum I ⟨n + 1, hn⟩ j else 0)
def accSq : ℕ → Fin 32 → EReal
  | 0, j => 0 + tileSumSq I ⟨0, by omega⟩ j
  | n + 1, j => accSq n j + (if hn : n + 1 < 500 then tileSumSq I ⟨n + 1, hn⟩ j else 0)

/-- Column sums over all edges. -/
def s1 (j : Fin 32) : EReal := ∑ e : Fin 2000000, h I e j
def s2 (j : Fin 32) : EReal := ∑ e : Fin 2000000, h I e j * h I e j

/-- The number of edges and the batch-norm epsilon, as the words both programs carry. -/
def nE : EReal := Ideal.ofBits .f32 0x49F42400#32
def eps : EReal := Ideal.ofBits .f32 0x3727C5AC#32

def mean (j : Fin 32) : EReal := Ideal.div (s1 I j) nE

/-! ### Kernel order -/
def varK (j : Fin 32) : EReal := Ideal.div (s2 I j) nE - mean I j * mean I j
def scale (j : Fin 32) : EReal := I.gamma (ix1 j) * Ideal.rsqrt (varK I j + eps)
def shift (j : Fin 32) : EReal := I.beta (ix1 j) - mean I j * I.gamma (ix1 j) * Ideal.rsqrt (varK I j + eps)
def outK (e : Fin 2000000) (o : Fin 32) : EReal :=
  (∑ j : Fin 32, (h I e j * scale I j + shift I j) * I.W2 (ix2 j o)) + I.b2 (ix1 o)

/-! ### Reference order -/
def varR (j : Fin 32) : EReal := Ideal.div (∑ e : Fin 2000000, (h I e j - mean I j) * (h I e j - mean I j)) nE
def outR (e : Fin 2000000) (o : Fin 32) : EReal :=
  (∑ j : Fin 32, ((h I e j - mean I j) * Ideal.rsqrt (varR I j + eps) * I.gamma (ix1 j) + I.beta (ix1 j)) * I.W2 (ix2 j o))
    + I.b2 (ix1 o)

end Cert.Spec

end
-- ==== Proof.SpecLaws.lean ====
/-
  Laws of the edge block's mathematics over the extended reals.

  (1) The running column sums, taken tile by tile in order, end at the column sums over all edges: the edges are
      exactly the pairs (tile, row in tile), and a finite sum of extended reals may be regrouped and reordered.
  (2) When every input is a real number the two ways of writing the normalised layer agree: Σ h² / E − mean² and
      Σ (h − mean)² / E are the same real, that real is ≥ 0, so rsqrt (var + eps) is a real, and
      h · (γ r) + (β − mean · γ · r) = (h − mean) · r · γ + β by distributivity over reals.
-/
import proofs.«402963_j33122787787020_1_alg».proof.Proof.Spec

noncomputable section

namespace Cert.Spec

open Idealize.ShloMosaic Idealize.ShloMosaic.ValueIdx

variable (I : Inputs)

/-! ### (1) Tile by tile is edge by edge -/

/-- A running sum that starts at zero plus the first term and adds each next term on the right is the sum of the
    terms met so far (terms past the last tile count as zero). -/
private theorem run_eq_sum_range (f : Fin 500 → EReal) (a : ℕ → EReal)
    (h0 : a 0 = 0 + f ⟨0, by omega⟩)
    (hs : ∀ n, a (n + 1) = a n + (if hn : n + 1 < 500 then f ⟨n + 1, hn⟩ else 0)) (n : ℕ) :
    a n = ∑ i ∈ Finset.range (n + 1), (if hi : i < 500 then f ⟨i, hi⟩ else 0) := by
  induction n with
  | zero => rw [h0, zero_add, Finset.sum_range_one, dif_pos (by omega)]
  | succ n ih => rw [hs, ih, Finset.sum_range_succ _ (n + 1)]

/-- After the last tile the running sum is the sum over all 500 tiles. -/
private theorem run_last (f : Fin 500 → EReal) (a : ℕ → EReal)
    (h0 : a 0 = 0 + f ⟨0, by omega⟩)
    (hs : ∀ n, a (n + 1) = a n + (if hn : n + 1 < 500 then f ⟨n + 1, hn⟩ else 0)) :
    a 499 = ∑ t : Fin 500, f t := by
  rw [run_eq_sum_range f a h0 hs 499]
  show ∑ i ∈ Finset.range 500, (if hi : i < 500 then f ⟨i, hi⟩ else 0) = ∑ t, f t
  rw [Finset.sum_range]
  exact Finset.sum_congr rfl fun t _ => by rw [dif_pos t.isLt]

/-- The edges are the pairs (tile, row in tile): `e ↦ (e / 4000, e % 4000)` undoes `edgeOf`. -/
private def edgeEquiv : Fin 500 × Fin 4000 ≃ Fin 2000000 where
  toFun p := edgeOf p.1 p.2
  invFun e := (⟨e.val / 4000, by omega⟩, ⟨e.val % 4000, by omega⟩)
  left_inv := by
    rintro ⟨t, r⟩
    refine Prod.ext (Fin.ext ?_) (Fin.ext ?_)
    · show (4000 * t.val + r.val) / 4000 = t.val
      omega
    · show (4000 * t.val + r.val) % 4000 = r.val
      omega
  right_inv := by
    intro e
    refine Fin.ext ?_
    show 4000 * (e.val / 4000) + e.val % 4000 = e.val
    omega

/-- Summing tile by tile, and inside each tile row by row, is summing over all edges. -/
private theorem sum_tiles (F : Fin 2000000 → EReal) :
    ∑ t : Fin 500, ∑ r : Fin 4000, F (edgeOf t r) = ∑ e : Fin 2000000, F e := by
  rw [← Fintype.sum_prod_type' (f := fun t r => F (edgeOf t r))]
  exact Fintype.sum_equiv edgeEquiv _ _ (fun _ => rfl)

/-- After the last tile the running sums are the sums over all edges. -/
theorem acc_last (j : Fin 32) : acc I 499 j = s1 I j := by
  rw [run_last (fun t => tileSum I t j) (fun n => acc I n j) rfl (fun _ => rfl)]
  exact sum_tiles (fun e => h I e j)

theorem accSq_last (j : Fin 32) : accSq I 499 j = s2 I j := by
  rw [run_last (fun t => tileSumSq I t j) (fun n => accSq I n j) rfl (fun _ => rfl)]
  exact sum_tiles (fun e => h I e j * h I e j)

/-! ### (2) On real inputs the two orders agree -/

/-- A finite sum of real numbers, read in the extended reals, is the real sum. -/
private theorem coe_sum {ι : Type} (s : Finset ι) (f : ι → ℝ) :
    ∑ i ∈ s, ((f i : ℝ) : EReal) = ((∑ i ∈ s, f i : ℝ) : EReal) := by
  classical
  refine Finset.induction_on s ?_ ?_
  · rw [Finset.sum_empty, Finset.sum_empty, EReal.coe_zero]
  · intro a s ha ih
    rw [Finset.sum_insert ha, Finset.sum_insert ha, ih, EReal.coe_add]

/-- Every entry of the concatenated feature row is a real number. -/
private theorem x_real (hI : I.Ok) (e : Fin 2000000) (k : Fin 96) : ∃ r : ℝ, x I e k = (r : EReal) := by
  unfold x
  split_ifs
  · exact hI.src _
  · exact hI.dest _
  · exact hI.edge _
  · exact hI.u _

/-- So is every entry of the hidden layer: a finite sum of products of reals, plus a real, capped below by zero. -/
private theorem h_real (hI : I.Ok) (e : Fin 2000000) (j : Fin 32) : ∃ r : ℝ, h I e j = (r : EReal) := by
  choose xr hx using x_real I hI e
  choose wr hw using hI.W1
  obtain ⟨b, hb⟩ := hI.b1 (ix1 j)
  refine ⟨max ((∑ k : Fin 96, xr k * wr (ix2 k j)) + b) 0, ?_⟩
  unfold h
  simp only [hx, hw, hb, ← EReal.coe_mul]
  rw [coe_sum, ← EReal.coe_add, ← EReal.coe_zero]
  exact (EReal.coe_strictMono.monotone.map_max).symm

/-- The word for the number of edges denotes 2,000,000 = (2²³ + 7611392) · 2⁻³. -/
private theorem nE_eq : nE = ((2000000 : ℝ) : EReal) := by
  unfold nE
  simp [Ideal.ofBits, Ideal.ieee, -EReal.coe_mul]; norm_num

/-- The word for epsilon denotes the positive real (2²³ + 2606508) · 2⁻⁴⁰. -/
private theorem eps_real : ∃ ε : ℝ, 0 < ε ∧ eps = (ε : EReal) := by
  refine ⟨(10995116 : ℝ) * (2 : ℝ) ^ (-40 : ℤ), by positivity, ?_⟩
  unfold eps
  simp [Ideal.ofBits, Ideal.ieee, -EReal.coe_mul]

/-- The identity behind the two variances: with μ = (Σ a) / E over E = 2,000,000 terms,
    Σ a² / E − μ² = Σ (a − μ)² / E (expand the square; Σ μ² = E μ² and Σ a = E μ). -/
private theorem var_real (a : Fin 2000000 → ℝ) (μ : ℝ) (hμ : μ = (∑ e, a e) * (1 / 2000000)) :
    (∑ e, a e * a e) * (1 / 2000000) - μ * μ = (∑ e, (a e - μ) * (a e - μ)) * (1 / 2000000) := by
  have h1 : ∑ e, (a e - μ) * (a e - μ) = (∑ e, a e * a e) - 2 * μ * (∑ e, a e) + 2000000 * (μ * μ) := by
    have hsq : ∀ e, (a e - μ) * (a e - μ) = a e * a e - 2 * μ * a e + μ * μ := fun e => by ring
    simp only [hsq]
    rw [Finset.sum_add_distrib, Finset.sum_sub_distrib, ← Finset.mul_sum, Finset.sum_const, Finset.card_univ,
      Fintype.card_fin, nsmul_eq_mul]
    norm_num
  have h2 : (∑ e, a e) = 2000000 * μ := by rw [hμ]; ring
  rw [h1, h2]; ring

/-- On real inputs the mean is a real, and the two variances plus epsilon are one positive real, so both orders take the
    reciprocal square root of the same positive real and get the same real. -/
private theorem stats_real (hI : I.Ok) (j : Fin 32) :
    ∃ μ r : ℝ, mean I j = (μ : EReal) ∧ Ideal.rsqrt (varK I j + eps) = (r : EReal) ∧
      Ideal.rsqrt (varR I j + eps) = (r : EReal) := by
  choose a ha using fun e => h_real I hI e j
  obtain ⟨ε, hε, heps⟩ := eps_real
  have hE : (2000000 : ℝ) ≠ 0 := by norm_num
  obtain ⟨μ, hμ⟩ : ∃ μ : ℝ, μ = (∑ e, a e) * (1 / 2000000) := ⟨_, rfl⟩
  have hmean : mean I j = (μ : EReal) := by
    unfold mean s1
    simp only [ha]
    rw [coe_sum, nE_eq, Ideal.div_coe hE, ← EReal.coe_mul, hμ]
  have hK : varK I j = (((∑ e, a e * a e) * (1 / 2000000) - μ * μ : ℝ) : EReal) := by
    unfold varK s2
    simp only [ha, hmean, ← EReal.coe_mul]
    rw [coe_sum, nE_eq, Ideal.div_coe hE, ← EReal.coe_mul, ← EReal.coe_sub]
  have hR : varR I j = (((∑ e, (a e - μ) * (a e - μ)) * (1 / 2000000) : ℝ) : EReal) := by
    unfold varR
    simp only [ha, hmean, ← EReal.coe_sub, ← EReal.coe_mul]
    rw [coe_sum, nE_eq, Ideal.div_coe hE, ← EReal.coe_mul]
  have hnn : 0 ≤ (∑ e, (a e - μ) * (a e - μ)) * (1 / 2000000 : ℝ) :=
    mul_nonneg (Finset.sum_nonneg fun e _ => mul_self_nonneg _) (by norm_num)
  have hpos : 0 < (∑ e, (a e - μ) * (a e - μ)) * (1 / 2000000 : ℝ) + ε := by linarith
  refine ⟨μ, (Real.sqrt ((∑ e, (a e - μ) * (a e - μ)) * (1 / 2000000) + ε))⁻¹, hmean, ?_, ?_⟩
  · rw [hK, var_real a μ hμ, heps, ← EReal.coe_add, Ideal.rsqrt_coe, if_neg (not_lt.mpr hpos.le), if_neg hpos.ne']
  · rw [hR, heps, ← EReal.coe_add, Ideal.rsqrt_coe, if_neg (not_lt.mpr hpos.le), if_neg hpos.ne']

/-- On real inputs the kernel's order and the reference's order give one result. -/
theorem outK_eq_outR (hI : I.Ok) (e : Fin 2000000) (o : Fin 32) : outK I e o = outR I e o := by
  unfold outK outR
  congr 1
  refine Finset.sum_congr rfl fun j _ => ?_
  obtain ⟨μ, r, hμ, hrK, hrR⟩ := stats_real I hI j
  obtain ⟨a, ha⟩ := h_real I hI e j
  obtain ⟨g, hg⟩ := hI.gamma (ix1 j)
  obtain ⟨b, hb⟩ := hI.beta (ix1 j)
  obtain ⟨w, hw⟩ := hI.W2 (ix2 j o)
  unfold scale shift
  rw [hrK, hrR, hμ, ha, hg, hb, hw]
  simp only [← EReal.coe_mul, ← EReal.coe_sub, ← EReal.coe_add]
  congr 1; ring

end Cert.Spec

end
-- ==== Proof.PreDecode.lean ====
/-
  What the stated precondition says about the inputs: it is the conjunction, read off a tree of `and`s of whole-array
  `all`-reductions, of |x| < +∞ for every entry of every float input — so each entry is a real number — and of
  0 ≤ batch e and batch e < 1024 (signed) for every edge e — so each index is a row of the 1024-row table.
-/
import proofs.«402963_j33122787787020_1_alg».proof.Pre_finite_inputs
import proofs.«402963_j33122787787020_1_alg».proof.Proof.Gen.Pre_finite_inputs
import proofs.«402963_j33122787787020_1_alg».proof.Proof.Spec
import Idealize.ShloMosaic.PureOps.Ideal
import Idealize.ShloMosaic.Lib.ReduceAll
import Idealize.ShloMosaic.Lib.StableHlo.Predicate

noncomputable section

namespace Cert.PreDecode

open Idealize.ShloMosaic

/-- The rank-0 shape has one index. -/
private theorem subsingleton_scalar_idx : Subsingleton (⟨0, ![]⟩ : Shape).Idx :=
  ⟨fun a b => funext fun d => d.elim0⟩

attribute [local instance] subsingleton_scalar_idx

/-- The word 0x7F800000 denotes +∞. -/
private theorem ofBits_inf : Ideal.ofBits .f32 0x7F800000#32 = (⊤ : EReal) := by
  simp [Ideal.ofBits, Ideal.ieee]

/-- An extended real whose absolute value max x (−x) lies strictly below +∞ is a real number: at ⊤ the maximum is ⊤,
    and at ⊥ it is −⊥ = ⊤, so neither is below ⊤. -/
private theorem real_of_abs_lt_top (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- A float array whose test "all of |x| < +∞" came out 1 holds a real number at every index. -/
private theorem all_real {s : Shape} {axes : List (Fin s.rank)}
    (hb : (⟨0, ![]⟩ : Shape).BroadcastsInDim s (![] : Fin 0 → Fin s.rank))
    (hr : s.ReducesTo axes ⟨0, ![]⟩) (h0 : 0 < (⟨0, ![]⟩ : Shape).numel) (x : FVec Ideal s .f32) (j : (⟨0, ![]⟩ : Shape).Idx)
    (e : Host.reduce IntOp.andi
          (cmpf .olt (Host.absf x) (broadcastInDim s ![] hb (constant (F := Ideal) ⟨0, ![]⟩ .f32 0x7F800000#32)))
          (constantI ⟨0, ![]⟩ 1 1#1) hr h0 j = 1#1) (i : s.Idx) : ∃ r : ℝ, x i = (r : EReal) :=
  real_of_abs_lt_top (x i) (Host.reduce_andi_all _ _ hr h0 j e i)

/-- An index array whose test "all of c ≤ x" (signed) came out 1 has c ≤ x i at every index. -/
private theorem all_sge {s : Shape} {axes : List (Fin s.rank)}
    (hb : (⟨0, ![]⟩ : Shape).BroadcastsInDim s (![] : Fin 0 → Fin s.rank))
    (hr : s.ReducesTo axes ⟨0, ![]⟩) (h0 : 0 < (⟨0, ![]⟩ : Shape).numel) (x : IVec s 32) (c : BitVec 32)
    (j : (⟨0, ![]⟩ : Shape).Idx)
    (e : Host.reduce IntOp.andi (cmpi .sge x (broadcastInDim s ![] hb (constantI ⟨0, ![]⟩ 32 c)))
          (constantI ⟨0, ![]⟩ 1 1#1) hr h0 j = 1#1) (i : s.Idx) : c.toInt ≤ (x i).toInt :=
  IntOp.cmpi_sge.1 (Host.reduce_andi_all _ _ hr h0 j e i)

/-- An index array whose test "all of x < c" (signed) came out 1 has x i < c at every index. -/
private theorem all_slt {s : Shape} {axes : List (Fin s.rank)}
    (hb : (⟨0, ![]⟩ : Shape).BroadcastsInDim s (![] : Fin 0 → Fin s.rank))
    (hr : s.ReducesTo axes ⟨0, ![]⟩) (h0 : 0 < (⟨0, ![]⟩ : Shape).numel) (x : IVec s 32) (c : BitVec 32)
    (j : (⟨0, ![]⟩ : Shape).Idx)
    (e : Host.reduce IntOp.andi (cmpi .slt x (broadcastInDim s ![] hb (constantI ⟨0, ![]⟩ 32 c)))
          (constantI ⟨0, ![]⟩ 1 1#1) hr h0 j = 1#1) (i : s.Idx) : (x i).toInt < c.toInt :=
  IntOp.cmpi_slt.1 (Host.reduce_andi_all _ _ hr h0 j e i)

/-- If the precondition evaluates to all ones on the input record's arrays, every float entry is a real number and
    every index lies in [0, 1024). -/
theorem ok_of_pre [Cert.Pre_finite_inputs.Facts] (I : Cert.Spec.Inputs)
    (h : Cert.Pre_finite_inputs.fn (F := Ideal) I.src I.dest I.edge I.u I.batch I.W1 I.b1 I.gamma I.beta I.W2 I.b2
      = fun _ => 1#1) : I.Ok := by
  have e := congrFun h (Shape.Idx.first Cert.Pre_finite_inputs.Facts.h_S_)
  dsimp only [Cert.Pre_finite_inputs.fn, Cert.Pre_finite_inputs.fn_part1, Cert.Pre_finite_inputs.fn_part2,
    Cert.Pre_finite_inputs.fn_part3] at e
  simp only [andi, IntOp.andi_eq_one] at e
  obtain ⟨⟨⟨⟨⟨⟨⟨⟨⟨⟨⟨hsrc, hdest⟩, hedge⟩, hu⟩, hW1⟩, hb1⟩, hgamma⟩, hbeta⟩, hW2⟩, hb2⟩, hge⟩, hlt⟩ := e
  have z0 : (0#32 : BitVec 32).toInt = 0 := by decide
  have z1 : (1024#32 : BitVec 32).toInt = 1024 := by decide
  exact
    { src := all_real _ _ _ _ _ hsrc
      dest := all_real _ _ _ _ _ hdest
      edge := all_real _ _ _ _ _ hedge
      u := all_real _ _ _ _ _ hu
      W1 := all_real _ _ _ _ _ hW1
      b1 := all_real _ _ _ _ _ hb1
      gamma := all_real _ _ _ _ _ hgamma
      beta := all_real _ _ _ _ _ hbeta
      W2 := all_real _ _ _ _ _ hW2
      b2 := all_real _ _ _ _ _ hb2
      batch := fun i => ⟨z0 ▸ all_sge _ _ _ _ _ _ hge i, z1 ▸ all_slt _ _ _ _ _ _ hlt i⟩ }

end Cert.PreDecode

end
-- ==== Proof.RefRead.lean ====
/-
  The reference's result read index by index: its host operations, one stage at a time, as a function of the
  argument arrays over the extended reals. A negative index would be wrapped by +1024 and any index is then clamped
  into the table by the gather; for an index that is already a row of the table neither changes it, so the gathered
  row is `u (batch e)`. The concatenation picks its operand by the column; the two matrix products are finite sums;
  the two column reductions are sums over all edges; the rest is pointwise.
-/
import proofs.«402963_j33122787787020_1_alg».proof.Defs
import proofs.«402963_j33122787787020_1_alg».proof.Proof.Gen.ReferenceIdeal
import proofs.«402963_j33122787787020_1_alg».proof.Proof.Gen.ReferenceIdeal.Run
import proofs.«402963_j33122787787020_1_alg».proof.Proof.Gen.ReferenceIdeal.Read
import proofs.«402963_j33122787787020_1_alg».proof.Proof.Spec
import Idealize.ShloMosaic.Lib.ValueIdx
import Idealize.ShloMosaic.Lib.Pipeline.Value
import Idealize.ShloMosaic.PureOps.Ideal.Laws

noncomputable section

namespace Cert.RefRead

open Idealize.ShloMosaic Idealize.ShloMosaic.ValueIdx Cert.ReferenceIdeal Cert.ReferenceIdeal.Gen Cert.ReferenceIdeal.Read

/-- A signed compare of a non-negative word against zero is false. -/
private theorem slt_zero_of_nonneg (b : BitVec 32) (hb : 0 ≤ b.toInt) : IntOp.cmpi .slt b 0#32 = 0#1 := by
  have h0 : (0#32 : BitVec 32).toInt = 0 := by decide
  show BitVec.ofBool (decide (b.toInt < (0#32 : BitVec 32).toInt)) = 0#1
  rw [h0, decide_eq_false (by omega)]; rfl

/-- A non-negative index is not wrapped: the select keeps it. -/
private theorem v4_apply (x4 : (⟨S2000000, .i32⟩ : BufTy).Contents (Elt Ideal)) (i : S2000000.Idx) (h : 0 ≤ (x4 i).toInt) :
    val_main_v4 (F := Ideal) x4 i = x4 i := by
  rw [val_main_v4_apply, val_main_v1_apply, val_main_v0_apply, val_main_c_apply, slt_zero_of_nonneg _ h, select_zero]

/-- The gathered row: for an index that is a row of the table the wrap and the clamp change nothing, so the gather
    reads row `batch e` of the table at the offset column. -/
private theorem v6_apply (I : Cert.Spec.Inputs) (hI : I.Ok) (e : Fin 2000000) (q : Fin 16) :
    val_main_v6 (F := Ideal) I.u I.batch (ix2 e q) = I.u (ix2 (Cert.Spec.row I e) q) := by
  unfold val_main_v6 Host.gather
  congr 1
  funext a
  refine Fin.ext ?_
  match a with
  | ⟨0, _⟩ =>
    show gather_S1024x16_S2000000x1_S2000000x16_1_0_n_n_0_1_116.start (ix2 e q) (val_main_v5 (F := Ideal) I.batch) 0
      + gather_S1024x16_S2000000x1_S2000000x16_1_0_n_n_0_1_116.batchCoord (ix2 e q) 0
      + gather_S1024x16_S2000000x1_S2000000x16_1_0_n_n_0_1_116.offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S1024x16_S2000000x1_S2000000x16_1_0_n_n_0_1_116.startIndexMap from List.mem_singleton.mpr rfl)]
    have hsi : gather_S1024x16_S2000000x1_S2000000x16_1_0_n_n_0_1_116.siIdx (ix2 e q)
        ⟨List.idxOf (0 : Fin 2) gather_S1024x16_S2000000x1_S2000000x16_1_0_n_n_0_1_116.startIndexMap,
          List.idxOf_lt_length_iff.2 (List.mem_singleton.mpr rfl)⟩ = ix2 e (0 : Fin 1) := by
      funext b; refine Fin.ext ?_
      match b with
      | ⟨0, _⟩ => rfl
      | ⟨1, _⟩ => rfl
    have h5 : idx_main_v5 (ix2 e (0 : Fin 1)) = ix1 e := by
      funext b; match b with | ⟨0, _⟩ => rfl
    rw [hsi, val_main_v5_apply, h5, v4_apply _ _ (hI.batch (ix1 e)).1]
    rfl
  | ⟨1, _⟩ =>
    show gather_S1024x16_S2000000x1_S2000000x16_1_0_n_n_0_1_116.start (ix2 e q) (val_main_v5 (F := Ideal) I.batch) 1
      + gather_S1024x16_S2000000x1_S2000000x16_1_0_n_n_0_1_116.batchCoord (ix2 e q) 1
      + gather_S1024x16_S2000000x1_S2000000x16_1_0_n_n_0_1_116.offCoord (ix2 e q) 1 = _
    rw [GatherDims.batchCoord_eq_zero _ _ _ List.not_mem_nil]
    have hs : gather_S1024x16_S2000000x1_S2000000x16_1_0_n_n_0_1_116.start (ix2 e q) (val_main_v5 (F := Ideal) I.batch) 1 = 0 := by
      unfold GatherDims.start
      rw [dif_neg (show ¬ (1 : Fin 2) ∈ gather_S1024x16_S2000000x1_S2000000x16_1_0_n_n_0_1_116.startIndexMap from by
        intro h; exact absurd (List.mem_singleton.mp h) (by decide))]
    have ho : gather_S1024x16_S2000000x1_S2000000x16_1_0_n_n_0_1_116.offCoord (ix2 e q) 1 = q.val := by
      unfold GatherDims.offCoord
      rw [dif_pos ((GatherDims.mem_sKept _ _).mpr ⟨fun h => absurd (List.mem_singleton.mp h) (by decide), List.not_mem_nil⟩)]
      rfl
    rw [hs, ho]
    simp only [Nat.zero_add]

/-- The concatenated feature row: the column picks the operand, and the gathered operand is the table's row. -/
private theorem v7_apply (I : Cert.Spec.Inputs) (hI : I.Ok) (e : Fin 2000000) (k : Fin 96) :
    val_main_v7 (F := Ideal) I.src I.dest I.edge I.u I.batch (ix2 e k) = Cert.Spec.x I e k := by
  have hk := k.isLt
  unfold val_main_v7 Cert.Spec.x
  by_cases h0 : k.val < 32
  · rw [dif_pos h0]
    refine concatenate_apply_piece
      (xs := [⟨S2000000x32, I.src⟩, ⟨S2000000x32, I.dest⟩, ⟨S2000000x16, I.edge⟩, ⟨S2000000x16, val_main_v6 (F := Ideal) I.u I.batch⟩])
      (1 : Fin 2) _ (ix2 e k) 0 (by simp) S2000000x32 I.src rfl rfl 0 rfl
      (ix2 e ⟨k.val, h0⟩) (fun b hb => ?_) ?_
    · match b with
      | ⟨0, _⟩ => rfl
      | ⟨1, _⟩ => exact absurd rfl hb
    · show 0 + k.val = k.val
      omega
  rw [dif_neg h0]
  by_cases h1 : k.val < 64
  · rw [dif_pos h1]
    refine concatenate_apply_piece (1 : Fin 2) _ _ (ix2 e k) 1 (by simp) S2000000x32 I.dest rfl rfl 32 rfl
      (ix2 e ⟨k.val - 32, by omega⟩) (fun b hb => ?_) ?_
    · match b with
      | ⟨0, _⟩ => rfl
      | ⟨1, _⟩ => exact absurd rfl hb
    · show 32 + (k.val - 32) = k.val
      omega
  rw [dif_neg h1]
  by_cases h2 : k.val < 80
  · rw [dif_pos h2]
    refine concatenate_apply_piece (1 : Fin 2) _ _ (ix2 e k) 2 (by simp) S2000000x16 I.edge rfl rfl 64 rfl
      (ix2 e ⟨k.val - 64, by omega⟩) (fun b hb => ?_) ?_
    · match b with
      | ⟨0, _⟩ => rfl
      | ⟨1, _⟩ => exact absurd rfl hb
    · show 64 + (k.val - 64) = k.val
      omega
  rw [dif_neg h2, ← v6_apply I hI e ⟨k.val - 80, by omega⟩]
  refine concatenate_apply_piece (1 : Fin 2) _ _ (ix2 e k) 3 (by simp) S2000000x16 (val_main_v6 (F := Ideal) I.u I.batch) rfl rfl 80 rfl
    (ix2 e ⟨k.val - 80, by omega⟩) (fun b hb => ?_) ?_
  · match b with
    | ⟨0, _⟩ => rfl
    | ⟨1, _⟩ => exact absurd rfl hb
  · show 80 + (k.val - 80) = k.val
    omega

/-- The hidden layer after the rectifier, as a function of the index. -/
private theorem v12_eq (I : Cert.Spec.Inputs) (hI : I.Ok) :
    val_main_v12 (F := Ideal) I.src I.dest I.edge I.u I.batch I.W1 I.b1
      = fun (i : S2000000x32.Idx) => Cert.Spec.h I (i 0) (i 1) := by
  funext i
  obtain ⟨e, j, rfl⟩ : ∃ (e : Fin 2000000) (j : Fin 32), i = ix2 e j := ⟨i 0, i 1, eq_ix2 i⟩
  rw [val_main_v12_apply, val_main_v11_apply, val_main_v8_apply, val_main_v10_apply, val_main_v9_apply,
    val_main_call0_v0_apply, val_main_call0_cst_apply]
  have hl : ∀ k : Fin 96, lidx_main_v8 (ix2 e j) k = ix2 e k := fun k =>
    funext fun a => by match a with | ⟨0, _⟩ => rfl | ⟨1, _⟩ => rfl
  have hr : ∀ k : Fin 96, ridx_main_v8 (ix2 e j) k = ix2 k j := fun k =>
    funext fun a => by match a with | ⟨0, _⟩ => rfl | ⟨1, _⟩ => rfl
  have hb : idx_main_v9 (idx_main_v10 (ix2 e j)) = ix1 j :=
    funext fun a => by match a with | ⟨0, _⟩ => rfl
  simp only [hl, hr, hb, v7_apply I hI, Ideal.addf_def, Ideal.maximumf_def, Ideal.ofBits_def, Ideal.ofBits_zero_f32]
  rfl

/-- The column mean, as a function of the index. -/
private theorem v15_eq (I : Cert.Spec.Inputs) (hI : I.Ok) :
    val_main_v15 (F := Ideal) I.src I.dest I.edge I.u I.batch I.W1 I.b1
      = fun (i : S32.Idx) => Cert.Spec.mean I (i 0) := by
  funext i
  obtain ⟨j, rfl⟩ : ∃ j : Fin 32, i = ix1 j := ⟨i 0, eq_ix1 i⟩
  rw [val_main_v15_apply, val_main_v13_apply, val_main_v14_apply, val_main_cst_1_apply, val_main_cst_apply, v12_eq I hI]
  simp only [Ideal.hostDivf_def, Ideal.ofBits_def, Ideal.ofBits_zero_f32, zero_add]
  rfl

/-- The column variance in the reference's order, as a function of the index. -/
private theorem v22_eq (I : Cert.Spec.Inputs) (hI : I.Ok) :
    val_main_v22 (F := Ideal) I.src I.dest I.edge I.u I.batch I.W1 I.b1
      = fun (i : S32.Idx) => Cert.Spec.varR I (i 0) := by
  funext i
  obtain ⟨j, rfl⟩ : ∃ j : Fin 32, i = ix1 j := ⟨i 0, eq_ix1 i⟩
  rw [val_main_v22_apply, val_main_v20_apply, val_main_v21_apply, val_main_cst_3_apply, val_main_cst_2_apply]
  simp only [val_main_v19_apply, val_main_v18_apply, val_main_v17_apply, val_main_v16_apply, v12_eq I hI, v15_eq I hI,
    Ideal.hostDivf_def, Ideal.mulf_def, Ideal.subf_def, Ideal.ofBits_def, Ideal.ofBits_zero_f32, zero_add]
  rfl

/-- The normalised layer in the reference's order, as a function of the index. -/
private theorem v37_eq (I : Cert.Spec.Inputs) (hI : I.Ok) :
    val_main_v37 (F := Ideal) I.src I.dest I.edge I.u I.batch I.W1 I.b1 I.gamma I.beta
      = fun (i : S2000000x32.Idx) =>
          (Cert.Spec.h I (i 0) (i 1) - Cert.Spec.mean I (i 1)) * Ideal.rsqrt (Cert.Spec.varR I (i 1) + Cert.Spec.eps)
            * I.gamma (ix1 (i 1)) + I.beta (ix1 (i 1)) := by
  funext i
  obtain ⟨e, j, rfl⟩ : ∃ (e : Fin 2000000) (j : Fin 32), i = ix2 e j := ⟨i 0, i 1, eq_ix2 i⟩
  have hg : idx_main_v32 (idx_main_v33 (ix2 e j)) = ix1 j :=
    funext fun a => by match a with | ⟨0, _⟩ => rfl
  have hbt : idx_main_v35 (idx_main_v36 (ix2 e j)) = ix1 j :=
    funext fun a => by match a with | ⟨0, _⟩ => rfl
  simp only [val_main_v37_apply, val_main_v34_apply, val_main_v31_apply, val_main_v25_apply, val_main_v24_apply,
    val_main_v23_apply, val_main_v30_apply, val_main_v29_apply, val_main_v28_apply, val_main_v27_apply,
    val_main_v26_apply, val_main_cst_4_apply, val_main_v33_apply, val_main_v32_apply, val_main_v36_apply,
    val_main_v35_apply, hg, hbt, v12_eq I hI, v15_eq I hI, v22_eq I hI,
    Ideal.addf_def, Ideal.mulf_def, Ideal.subf_def, Ideal.hostUnary_rsqrt_def, Ideal.ofBits_def]
  rfl

/-- The reference's last stage, on inputs whose indices are rows of the table, is the reference-order result. -/
theorem val_eq (I : Cert.Spec.Inputs) (hI : I.Ok) (i : S2000000x32.Idx) :
    val_main_v41 (F := Ideal) I.src I.dest I.edge I.u I.batch I.W1 I.b1 I.gamma I.beta I.W2 I.b2 i
      = Cert.Spec.outR I (i 0) (i 1) := by
  obtain ⟨e, o, rfl⟩ : ∃ (e : Fin 2000000) (o : Fin 32), i = ix2 e o := ⟨i 0, i 1, eq_ix2 i⟩
  have hr : ∀ k : Fin 32, ridx_main_v38 (ix2 e o) k = ix2 k o := fun k =>
    funext fun a => by match a with | ⟨0, _⟩ => rfl | ⟨1, _⟩ => rfl
  have hb : idx_main_v39 (idx_main_v40 (ix2 e o)) = ix1 o :=
    funext fun a => by match a with | ⟨0, _⟩ => rfl
  simp only [val_main_v41_apply, val_main_v38_apply, val_main_v40_apply, val_main_v39_apply, hr, hb, v37_eq I hI,
    Ideal.addf_def]
  rfl

end Cert.RefRead

end
-- ==== Proof.KIn.lean ====
/-
  The argument arrays of the idealized kernel program, read off the launch memory of one device as the input record
  the mathematics is stated over; and the tile number of a grid point of either kernel (both grids have 500 points,
  one per tile of 4000 edges).
-/
import proofs.«402963_j33122787787020_1_alg».proof.KernelIdeal
import proofs.«402963_j33122787787020_1_alg».proof.Proof.Gen.KernelIdeal
import proofs.«402963_j33122787787020_1_alg».proof.Proof.Gen.KernelIdeal.Skeleton
import proofs.«402963_j33122787787020_1_alg».proof.Proof.Gen.KernelIdeal.Launch
import proofs.«402963_j33122787787020_1_alg».proof.Proof.Gen.KernelIdeal.Points
import proofs.«402963_j33122787787020_1_alg».proof.Proof.Gen.KernelIdeal.Frame
import proofs.«402963_j33122787787020_1_alg».proof.Proof.Spec

noncomputable section

namespace Cert.KIn

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The input record of device `c`: each argument array as launched. -/
def inputs (c : Dev nD) : Cert.Spec.Inputs where
  src := m ((c : Thread nD τ).loc main_arg0)
  dest := m ((c : Thread nD τ).loc main_arg1)
  edge := m ((c : Thread nD τ).loc main_arg2)
  u := m ((c : Thread nD τ).loc main_arg3)
  batch := m ((c : Thread nD τ).loc main_arg4)
  W1 := m ((c : Thread nD τ).loc main_arg5)
  b1 := m ((c : Thread nD τ).loc main_arg6)
  gamma := m ((c : Thread nD τ).loc main_arg7)
  beta := m ((c : Thread nD τ).loc main_arg8)
  W2 := m ((c : Thread nD τ).loc main_arg9)
  b2 := m ((c : Thread nD τ).loc main_arg10)

/-- A grid point of the first kernel as a tile number. -/
def tile0 (t : Fin cfg0.N) : Fin 500 := ⟨t.val, lt_of_lt_of_eq t.isLt N_0⟩
/-- A grid point of the second kernel as a tile number. -/
def tile1 (t : Fin cfg1.N) : Fin 500 := ⟨t.val, lt_of_lt_of_eq t.isLt N_1⟩

end Cert.KIn

end
-- ==== Proof.KTile.lean ====
/-
  What it means for the blocks a grid point of the first kernel loads to be tile `t` of the inputs: rows
  4000·t … 4000·t + 3999 of the three per-edge arrays and of the index column, and the whole of the table, of the
  first layer's weights and of its bias row.
-/
import proofs.«402963_j33122787787020_1_alg».proof.KernelIdeal
import proofs.«402963_j33122787787020_1_alg».proof.Proof.Gen.KernelIdeal
import proofs.«402963_j33122787787020_1_alg».proof.Proof.Gen.KernelIdeal.Skeleton
import proofs.«402963_j33122787787020_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KTile

open Idealize.ShloMosaic Idealize.ShloMosaic.ValueIdx Cert.KernelIdeal

/-- The seven input blocks of a grid point are tile `t` of the input record. -/
structure TileOf (I : Cert.Spec.Inputs) (t : Fin 500)
    (x0 x1 : Vec Ideal S4000x32 .f32) (x2 : Vec Ideal S4000x16 .f32) (x3 : Vec Ideal S4000x1 .i32)
    (x4 : Vec Ideal S1024x16 .f32) (x5 : Vec Ideal S96x32 .f32) (x6 : Vec Ideal S1x32 .f32) : Prop where
  src : ∀ (r : Fin 4000) (k : Fin 32), x0 (ix2 r k) = I.src (ix2 (Cert.Spec.edgeOf t r) k)
  dest : ∀ (r : Fin 4000) (k : Fin 32), x1 (ix2 r k) = I.dest (ix2 (Cert.Spec.edgeOf t r) k)
  edge : ∀ (r : Fin 4000) (k : Fin 16), x2 (ix2 r k) = I.edge (ix2 (Cert.Spec.edgeOf t r) k)
  batch : ∀ (r : Fin 4000), x3 (ix2 r (0 : Fin 1)) = I.batch (ix1 (Cert.Spec.edgeOf t r))
  u : ∀ (g : Fin 1024) (q : Fin 16), x4 (ix2 g q) = I.u (ix2 g q)
  W1 : ∀ (k : Fin 96) (j : Fin 32), x5 (ix2 k j) = I.W1 (ix2 k j)
  b1 : ∀ (j : Fin 32), x6 (ix2 (0 : Fin 1) j) = I.b1 (ix1 j)

end Cert.KTile

end
-- ==== Proof.KSmall.lean ====
/-
  The remaining payloads of the two kernels read at an index: the two zero rows the first grid point stores; the
  running row re-read; a column sum of the tile's hidden block added to the running row (of the block itself, and of
  its square); and the second kernel's block — h · scale + shift row by row, times the second layer's weights as a
  finite sum over 32, plus its bias row.
-/
import proofs.«402963_j33122787787020_1_alg».proof.KernelIdeal
import proofs.«402963_j33122787787020_1_alg».proof.Proof.Gen.KernelIdeal
import proofs.«402963_j33122787787020_1_alg».proof.Proof.Gen.KernelIdeal.Skeleton
import proofs.«402963_j33122787787020_1_alg».proof.Proof.Spec
import proofs.«402963_j33122787787020_1_alg».proof.Proof.KTile
import Idealize.ShloMosaic.Lib.ValueIdx
import Idealize.ShloMosaic.Lib.ValueLayout
import Idealize.ShloMosaic.Lib.Pipeline.Value
import Idealize.ShloMosaic.PureOps.Ideal.Laws

noncomputable section

namespace Cert.KSmall

open Idealize.ShloMosaic Idealize.ShloMosaic.ValueIdx Cert.KernelIdeal Cert.KernelIdeal.Gen

/-- A row vector of 32 viewed as a 1 × 32 block reads, at (0, j), the vector at j. -/
private theorem addUnit_row {α : Type} (v : S32.Idx → α) (h : S32.ShapeCasts S1x32) (j : Fin 32) :
    shapeCast S1x32 v h (ix2 (0 : Fin 1) j) = v (ix1 j) := by
  refine shapeCast_apply v h (ix2 (0 : Fin 1) j) (ix1 j) ?_
  rw [Shape.rowMajor_val_one, Shape.rowMajor_val_two]
  show j.val = 0 * 32 + j.val
  omega

/-- The index over lane j whose row coordinate is r is (r, j). -/
private theorem lift_row (h : S4000x32.Reduces [0] S32) (j : Fin 32) (r : Fin 4000) :
    h.lift (ix1 j) r = ix2 r j := by
  funext a
  match a with
  | ⟨0, _⟩ => rfl
  | ⟨1, _⟩ => rfl

/-- The sum of a 4000 × 32 block over its rows, at lane j, is the sum over r of the block at (r, j). -/
private theorem colSum_apply (v : FVec Ideal S4000x32 .f32) (h : S4000x32.Reduces [0] S32) (hφ : FKind.Formats .f32)
    (hacc : (0x00000000#32 : BitVec 32) = FKind.add.neutral .f32 hφ) (j : Fin 32) :
    multiReduction (F := Ideal) .add [0] S32 v 0x00000000#32 h hφ hacc (ix1 j) = ∑ r : Fin 4000, v (ix2 r j) := by
  refine (Ideal.multiReduction_add_single v _ h hφ hacc (ix1 j)).trans ?_
  exact Finset.sum_congr rfl fun r _ => congrArg v (lift_row h j r)

/-- A 1 × 32 row broadcast down 4000 rows reads, at (r, o), the row at (0, o). -/
private theorem bcast_row {α : Type} (x : S1x32.Idx → α) (h : S1x32.Broadcasts S4000x32) (r : Fin 4000) (o : Fin 32) :
    broadcastTo S4000x32 x h (ix2 r o) = x (ix2 (0 : Fin 1) o) := by
  refine broadcastTo_apply x h (ix2 r o) (ix2 (0 : Fin 1) o) fun a => ?_
  match a with
  | ⟨0, _⟩ => rfl
  | ⟨1, _⟩ => rfl

private theorem lhs_k1_0 (i : S4000x32.Idx) (q : dot_S4000x32_S32x32_S4000x32_1_0_0_1_n_n.contr.Idx) :
    (dot_S4000x32_S32x32_S4000x32_1_0_0_1_n_n.lhsIdx i q 0).val = (i 0).val := by
  unfold DotDims.lhsIdx
  rw [dif_neg (show ¬(0 : Fin S4000x32.rank) ∈ dot_S4000x32_S32x32_S4000x32_1_0_0_1_n_n.lhsBatch by decide), dif_pos (show (0 : Fin S4000x32.rank) ∈ dot_S4000x32_S32x32_S4000x32_1_0_0_1_n_n.lhsNonContracting by decide)]
  rfl
private theorem lhs_k1_1 (i : S4000x32.Idx) (q : dot_S4000x32_S32x32_S4000x32_1_0_0_1_n_n.contr.Idx) :
    (dot_S4000x32_S32x32_S4000x32_1_0_0_1_n_n.lhsIdx i q 1).val = (q ⟨0, by decide⟩).val :=
  dot_S4000x32_S32x32_S4000x32_1_0_0_1_n_n.lhsIdx_val_of_single rfl i q
private theorem rhs_k1_0 (i : S4000x32.Idx) (q : dot_S4000x32_S32x32_S4000x32_1_0_0_1_n_n.contr.Idx) :
    (dot_S4000x32_S32x32_S4000x32_1_0_0_1_n_n.rhsIdx i q 0).val = (q ⟨0, by decide⟩).val :=
  dot_S4000x32_S32x32_S4000x32_1_0_0_1_n_n.rhsIdx_val_of_single rfl i q
private theorem rhs_k1_1 (i : S4000x32.Idx) (q : dot_S4000x32_S32x32_S4000x32_1_0_0_1_n_n.contr.Idx) :
    (dot_S4000x32_S32x32_S4000x32_1_0_0_1_n_n.rhsIdx i q 1).val = (i 1).val := by
  unfold DotDims.rhsIdx
  rw [dif_neg (show ¬(1 : Fin S32x32.rank) ∈ dot_S4000x32_S32x32_S4000x32_1_0_0_1_n_n.rhsBatch by decide), dif_pos (show (1 : Fin S32x32.rank) ∈ dot_S4000x32_S32x32_S4000x32_1_0_0_1_n_n.rhsNonContracting by decide)]
  rfl

/-- The product of a 4000 × 32 block and a 32 × 32 block into a zero accumulator, at (r, o): the sum over the
    contracted coordinate. -/
private theorem matmul_k1_apply (a : FVec Ideal S4000x32 .f32) (b : FVec Ideal S32x32 .f32) (r : Fin 4000) (o : Fin 32) :
    matmul dot_S4000x32_S32x32_S4000x32_1_0_0_1_n_n none a b (constant (F := Ideal) S4000x32 .f32 0x00000000#32) (ix2 r o)
      = ∑ k : Fin 32, a (ix2 r k) * b (ix2 k o) := by
  simp only [matmul]
  rw [Ideal.matmul_constant_zero_apply, ← Equiv.sum_comp (contrEquiv1 dot_S4000x32_S32x32_S4000x32_1_0_0_1_n_n 32 rfl rfl).symm]
  refine Finset.sum_congr rfl fun k _ => ?_
  have hk := contrEquiv1_symm_val dot_S4000x32_S32x32_S4000x32_1_0_0_1_n_n 32 rfl rfl k
  have el : dot_S4000x32_S32x32_S4000x32_1_0_0_1_n_n.lhsIdx (ix2 r o) ((contrEquiv1 dot_S4000x32_S32x32_S4000x32_1_0_0_1_n_n 32 rfl rfl).symm k) = ix2 r k := funext fun c => Fin.ext (by
    match c with
    | ⟨0, _⟩ => exact lhs_k1_0 _ _
    | ⟨1, _⟩ => exact (lhs_k1_1 _ _).trans hk)
  have er : dot_S4000x32_S32x32_S4000x32_1_0_0_1_n_n.rhsIdx (ix2 r o) ((contrEquiv1 dot_S4000x32_S32x32_S4000x32_1_0_0_1_n_n 32 rfl rfl).symm k) = ix2 k o := funext fun c => Fin.ext (by
    match c with
    | ⟨0, _⟩ => exact (rhs_k1_0 _ _).trans hk
    | ⟨1, _⟩ => exact rhs_k1_1 _ _)
  rw [el, er]

theorem pay3_apply (j : Fin 32) : k0_pay3 (F := Ideal) (ix2 (0 : Fin 1) j) = 0 := by
  unfold k0_pay3
  exact Ideal.ofBits_zero_f32

theorem pay4_apply (j : Fin 32) : k0_pay4 (F := Ideal) (ix2 (0 : Fin 1) j) = 0 := by
  unfold k0_pay4
  exact Ideal.ofBits_zero_f32

theorem pay6_eq (v29 : Vec Ideal S1x32 .f32) : k0_pay6 (F := Ideal) v29 = v29 := by
  unfold k0_pay6
  exact shapeCast_self v29 _

theorem pay1_apply (v30 v32 : FVec Ideal S1x32 .f32) (j : Fin 32) :
    k0_pay1 (F := Ideal) v30 v32 (ix2 (0 : Fin 1) j) = v30 (ix2 (0 : Fin 1) j) + v32 (ix2 (0 : Fin 1) j) := by
  unfold k0_pay1
  exact addf_apply v30 v32 _

/-- The column sums of a tile's hidden block, as a row. -/
theorem pay7_tile (I : Cert.Spec.Inputs) (t : Fin 500)
    (x0 x1 : Vec Ideal S4000x32 .f32) (x2 : Vec Ideal S4000x16 .f32) (x3 : Vec Ideal S4000x1 .i32)
    (x4 : Vec Ideal S1024x16 .f32) (x5 : Vec Ideal S96x32 .f32) (x6 : Vec Ideal S1x32 .f32)
    (hv : ∀ (r : Fin 4000) (j : Fin 32),
      k0_pay5 (F := Ideal) x3 x4 x0 x1 x2 x5 x6 (ix2 r j) = Cert.Spec.h I (Cert.Spec.edgeOf t r) j)
    (j : Fin 32) :
    k0_pay7 (F := Ideal) x3 x4 x0 x1 x2 x5 x6 (ix2 (0 : Fin 1) j) = Cert.Spec.tileSum I t j := by
  unfold k0_pay7
  refine (addUnit_row _ _ j).trans ?_
  refine (colSum_apply _ _ _ _ j).trans ?_
  unfold Cert.Spec.tileSum
  exact Finset.sum_congr rfl fun r _ => hv r j

/-- The running row of squares plus the column sums of the squared block. -/
theorem pay2_tile (I : Cert.Spec.Inputs) (t : Fin 500) (v27 : FVec Ideal S4000x32 .f32) (v35 : Vec Ideal S1x32 .f32)
    (hv : ∀ (r : Fin 4000) (j : Fin 32), v27 (ix2 r j) = Cert.Spec.h I (Cert.Spec.edgeOf t r) j) (j : Fin 32) :
    k0_pay2 (F := Ideal) v27 v35 (ix2 (0 : Fin 1) j) = v35 (ix2 (0 : Fin 1) j) + Cert.Spec.tileSumSq I t j := by
  unfold k0_pay2
  refine (addf_apply _ _ _).trans ?_
  rw [shapeCast_self v35]
  refine congrArg (v35 (ix2 (0 : Fin 1) j) + ·) ?_
  refine (addUnit_row _ _ j).trans ?_
  refine (colSum_apply _ _ _ _ j).trans ?_
  unfold Cert.Spec.tileSumSq
  exact Finset.sum_congr rfl fun r _ => by rw [mulf_apply, hv r j]

/-- The second kernel's block at (r, o). -/
theorem k1_pay1_apply (v0 : Vec Ideal S4000x32 .f32) (v2 v6 : Vec Ideal S1x32 .f32) (v10 : Vec Ideal S32x32 .f32)
    (v12 : Vec Ideal S1x32 .f32) (r : Fin 4000) (o : Fin 32) :
    k1_pay1 (F := Ideal) v0 v2 v6 v10 v12 (ix2 r o)
      = (∑ j : Fin 32, (v0 (ix2 r j) * v2 (ix2 (0 : Fin 1) j) + v6 (ix2 (0 : Fin 1) j)) * v10 (ix2 j o))
        + v12 (ix2 (0 : Fin 1) o) := by
  unfold k1_pay1
  refine (addf_apply _ _ _).trans ?_
  rw [shapeCast_self v0, shapeCast_self v2, shapeCast_self v6, shapeCast_self v12, bcast_row v12, matmul_k1_apply]
  refine congrArg (· + v12 (ix2 (0 : Fin 1) o)) ?_
  refine Finset.sum_congr rfl fun j _ => ?_
  rw [addf_apply, mulf_apply, bcast_row v2, bcast_row v6]

end Cert.KSmall

end
-- ==== Proof.KHidden.lean ====
/-
  The first kernel's hidden-layer payload read at an index. Row r of the tile: the one-hot row [batch r = g] (g over
  the 1024 rows of the table) times the table is the table's row batch r when 0 ≤ batch r < 1024 — every other term
  of the sum is 0 · u g q = 0 —; the four pieces side by side are the feature row x; the product with the weights is a
  finite sum over the 96 features; adding the bias row and taking the maximum with 0 gives h. Format changes are the
  identity over the extended reals.
-/
import proofs.«402963_j33122787787020_1_alg».proof.KernelIdeal
import proofs.«402963_j33122787787020_1_alg».proof.Proof.Gen.KernelIdeal
import proofs.«402963_j33122787787020_1_alg».proof.Proof.Gen.KernelIdeal.Skeleton
import proofs.«402963_j33122787787020_1_alg».proof.Proof.Spec
import proofs.«402963_j33122787787020_1_alg».proof.Proof.KTile
import Idealize.ShloMosaic.Lib.ValueIdx
import Idealize.ShloMosaic.Lib.ValueLayout
import Idealize.ShloMosaic.Lib.Pipeline.Value
import Idealize.ShloMosaic.PureOps.Ideal.Laws

noncomputable section

namespace Cert.KHidden

open Idealize.ShloMosaic Idealize.ShloMosaic.ValueIdx Cert.KernelIdeal Cert.KernelIdeal.Gen Cert.KTile

/-! ### The index column against the column numbers -/

/-- A column broadcast along the row: `[a, 1]` to `[a, b]` reads, at `(p, c)`, the column at `p`. -/
private theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The float of the widened one-bit comparison of two words: 1 where they are equal, else 0. -/
private theorem onehot_word (a b : BitVec 32) :
    (FloatOps.sitofp (F := Ideal) .f32 ((IntOp.cmpi .eq a b).setWidth 32) : EReal) = if a = b then 1 else 0 := by
  show ((((IntOp.cmpi .eq a b).setWidth 32).toInt : ℝ) : EReal) = _
  by_cases h : a = b
  · have e : IntOp.cmpi .eq a b = 1#1 := by
      unfold IntOp.cmpi
      show BitVec.ofBool (a == b) = 1#1
      rw [beq_iff_eq.2 h]; rfl
    have e2 : ((1#1 : BitVec 1).setWidth 32).toInt = 1 := by decide
    rw [if_pos h, e, e2]
    norm_num
  · have e : IntOp.cmpi .eq a b = 0#1 := by
      unfold IntOp.cmpi
      show BitVec.ofBool (a == b) = 0#1
      rw [beq_eq_false_iff_ne.2 h]; rfl
    have e2 : ((0#1 : BitVec 1).setWidth 32).toInt = 0 := by decide
    rw [if_neg h, e, e2]
    norm_num

/-- A word is the word of a row number below 1024 exactly when its unsigned value is that number. -/
private theorem word_eq_iff (b : BitVec 32) (g : Fin 1024) : b = BitVec.ofNat 32 g.val ↔ b.toNat = g.val := by
  have hg := g.isLt
  constructor
  · intro h
    rw [h, BitVec.toNat_ofNat]
    omega
  · intro h
    apply BitVec.eq_of_toNat_eq
    rw [BitVec.toNat_ofNat, h]
    omega

/-- A sum against the one-hot row of a word that is a row number: only the term at that row is left, every other
    term being 0 · f g = 0. -/
private theorem onehot_sum (b : BitVec 32) (hb : 0 ≤ b.toInt ∧ b.toInt < 1024) (f : Fin 1024 → EReal) :
    ∑ g : Fin 1024, (if b = BitVec.ofNat 32 g.val then (1 : EReal) else 0) * f g
      = f ⟨min b.toInt.toNat 1023, by omega⟩ := by
  have hc := BitVec.toInt_eq_toNat_cond b
  have hlt := b.isLt
  have hn : b.toInt.toNat = b.toNat := by
    split at hc <;> omega
  have hm : min b.toInt.toNat 1023 = b.toNat := by omega
  rw [Finset.sum_eq_single (⟨min b.toInt.toNat 1023, by omega⟩ : Fin 1024)]
  · rw [if_pos ((word_eq_iff b _).2 hm.symm), one_mul]
  · intro g _ hg
    rw [if_neg (fun h => hg (Fin.ext (((word_eq_iff b g).1 h).symm.trans hm.symm))), zero_mul]
  · intro h
    exact absurd (Finset.mem_univ _) h

/-! ### The first product's operand indices

At an output index and a contraction index, the left operand is read at (output row, contraction coordinate) and the
right operand at (contraction coordinate, output column): one lemma per operand and axis, then the product into a zero
accumulator as a sum over the 1024 contraction coordinates. -/

private theorem lhs_g_0 (i : S4000x16.Idx) (q : dot_S4000x1024_S1024x16_S4000x16_1_0_0_1_n_n.contr.Idx) :
    (dot_S4000x1024_S1024x16_S4000x16_1_0_0_1_n_n.lhsIdx i q 0).val = (i 0).val := by
  unfold DotDims.lhsIdx
  rw [dif_neg (show ¬(0 : Fin S4000x1024.rank) ∈ dot_S4000x1024_S1024x16_S4000x16_1_0_0_1_n_n.lhsBatch by decide), dif_pos (show (0 : Fin S4000x1024.rank) ∈ dot_S4000x1024_S1024x16_S4000x16_1_0_0_1_n_n.lhsNonContracting by decide)]
  rfl
private theorem lhs_g_1 (i : S4000x16.Idx) (q : dot_S4000x1024_S1024x16_S4000x16_1_0_0_1_n_n.contr.Idx) :
    (dot_S4000x1024_S1024x16_S4000x16_1_0_0_1_n_n.lhsIdx i q 1).val = (q ⟨0, by decide⟩).val :=
  dot_S4000x1024_S1024x16_S4000x16_1_0_0_1_n_n.lhsIdx_val_of_single rfl i q
private theorem rhs_g_0 (i : S4000x16.Idx) (q : dot_S4000x1024_S1024x16_S4000x16_1_0_0_1_n_n.contr.Idx) :
    (dot_S4000x1024_S1024x16_S4000x16_1_0_0_1_n_n.rhsIdx i q 0).val = (q ⟨0, by decide⟩).val :=
  dot_S4000x1024_S1024x16_S4000x16_1_0_0_1_n_n.rhsIdx_val_of_single rfl i q
private theorem rhs_g_1 (i : S4000x16.Idx) (q : dot_S4000x1024_S1024x16_S4000x16_1_0_0_1_n_n.contr.Idx) :
    (dot_S4000x1024_S1024x16_S4000x16_1_0_0_1_n_n.rhsIdx i q 1).val = (i 1).val := by
  unfold DotDims.rhsIdx
  rw [dif_neg (show ¬(1 : Fin S1024x16.rank) ∈ dot_S4000x1024_S1024x16_S4000x16_1_0_0_1_n_n.rhsBatch by decide), dif_pos (show (1 : Fin S1024x16.rank) ∈ dot_S4000x1024_S1024x16_S4000x16_1_0_0_1_n_n.rhsNonContracting by decide)]
  rfl

/-- The product of a 4000 × 1024 block and a 1024 × 16 block into a zero accumulator, read at (r, q): the sum over the 1024 contraction coordinates. -/
private theorem matmul_g_apply {φ₁ φ₂ : FTy} (a : FVec Ideal S4000x1024 φ₁) (b : FVec Ideal S1024x16 φ₂) (r : Fin 4000) (q : Fin 16) :
    matmul dot_S4000x1024_S1024x16_S4000x16_1_0_0_1_n_n none a b (constant (F := Ideal) S4000x16 .f32 0x00000000#32) (ix2 r q)
      = ∑ g : Fin 1024, a (ix2 r g) * b (ix2 g q) := by
  refine (Ideal.matmul_constant_zero_apply dot_S4000x1024_S1024x16_S4000x16_1_0_0_1_n_n none a b (ix2 r q)).trans ?_
  rw [← Equiv.sum_comp (ValueIdx.contrEquiv1 dot_S4000x1024_S1024x16_S4000x16_1_0_0_1_n_n 1024 rfl rfl).symm]
  refine Finset.sum_congr rfl fun k _ => ?_
  have hk := ValueIdx.contrEquiv1_symm_val dot_S4000x1024_S1024x16_S4000x16_1_0_0_1_n_n 1024 rfl rfl k
  have el : dot_S4000x1024_S1024x16_S4000x16_1_0_0_1_n_n.lhsIdx (ix2 r q) ((ValueIdx.contrEquiv1 dot_S4000x1024_S1024x16_S4000x16_1_0_0_1_n_n 1024 rfl rfl).symm k) = ix2 r k := funext fun ax => Fin.ext (by
    match ax with
    | ⟨0, _⟩ => exact lhs_g_0 _ _
    | ⟨1, _⟩ => exact (lhs_g_1 _ _).trans hk)
  have er : dot_S4000x1024_S1024x16_S4000x16_1_0_0_1_n_n.rhsIdx (ix2 r q) ((ValueIdx.contrEquiv1 dot_S4000x1024_S1024x16_S4000x16_1_0_0_1_n_n 1024 rfl rfl).symm k) = ix2 k q := funext fun ax => Fin.ext (by
    match ax with
    | ⟨0, _⟩ => exact (rhs_g_0 _ _).trans hk
    | ⟨1, _⟩ => exact rhs_g_1 _ _)
  rw [el, er]

/-! ### The second product's operand indices

At an output index and a contraction index, the left operand is read at (output row, contraction coordinate) and the
right operand at (contraction coordinate, output column): one lemma per operand and axis, then the product into a zero
accumulator as a sum over the 96 contraction coordinates. -/

private theorem lhs_f_0 (i : S4000x32.Idx) (q : dot_S4000x96_S96x32_S4000x32_1_0_0_1_n_n.contr.Idx) :
    (dot_S4000x96_S96x32_S4000x32_1_0_0_1_n_n.lhsIdx i q 0).val = (i 0).val := by
  unfold DotDims.lhsIdx
  rw [dif_neg (show ¬(0 : Fin S4000x96.rank) ∈ dot_S4000x96_S96x32_S4000x32_1_0_0_1_n_n.lhsBatch by decide), dif_pos (show (0 : Fin S4000x96.rank) ∈ dot_S4000x96_S96x32_S4000x32_1_0_0_1_n_n.lhsNonContracting by decide)]
  rfl
private theorem lhs_f_1 (i : S4000x32.Idx) (q : dot_S4000x96_S96x32_S4000x32_1_0_0_1_n_n.contr.Idx) :
    (dot_S4000x96_S96x32_S4000x32_1_0_0_1_n_n.lhsIdx i q 1).val = (q ⟨0, by decide⟩).val :=
  dot_S4000x96_S96x32_S4000x32_1_0_0_1_n_n.lhsIdx_val_of_single rfl i q
private theorem rhs_f_0 (i : S4000x32.Idx) (q : dot_S4000x96_S96x32_S4000x32_1_0_0_1_n_n.contr.Idx) :
    (dot_S4000x96_S96x32_S4000x32_1_0_0_1_n_n.rhsIdx i q 0).val = (q ⟨0, by decide⟩).val :=
  dot_S4000x96_S96x32_S4000x32_1_0_0_1_n_n.rhsIdx_val_of_single rfl i q
private theorem rhs_f_1 (i : S4000x32.Idx) (q : dot_S4000x96_S96x32_S4000x32_1_0_0_1_n_n.contr.Idx) :
    (dot_S4000x96_S96x32_S4000x32_1_0_0_1_n_n.rhsIdx i q 1).val = (i 1).val := by
  unfold DotDims.rhsIdx
  rw [dif_neg (show ¬(1 : Fin S96x32.rank) ∈ dot_S4000x96_S96x32_S4000x32_1_0_0_1_n_n.rhsBatch by decide), dif_pos (show (1 : Fin S96x32.rank) ∈ dot_S4000x96_S96x32_S4000x32_1_0_0_1_n_n.rhsNonContracting by decide)]
  rfl

/-- The product of a 4000 × 96 block and a 96 × 32 block into a zero accumulator, read at (r, q): the sum over the 96 contraction coordinates. -/
private theorem matmul_f_apply {φ₁ φ₂ : FTy} (a : FVec Ideal S4000x96 φ₁) (b : FVec Ideal S96x32 φ₂) (r : Fin 4000) (q : Fin 32) :
    matmul dot_S4000x96_S96x32_S4000x32_1_0_0_1_n_n none a b (constant (F := Ideal) S4000x32 .f32 0x00000000#32) (ix2 r q)
      = ∑ g : Fin 96, a (ix2 r g) * b (ix2 g q) := by
  refine (Ideal.matmul_constant_zero_apply dot_S4000x96_S96x32_S4000x32_1_0_0_1_n_n none a b (ix2 r q)).trans ?_
  rw [← Equiv.sum_comp (ValueIdx.contrEquiv1 dot_S4000x96_S96x32_S4000x32_1_0_0_1_n_n 96 rfl rfl).symm]
  refine Finset.sum_congr rfl fun k _ => ?_
  have hk := ValueIdx.contrEquiv1_symm_val dot_S4000x96_S96x32_S4000x32_1_0_0_1_n_n 96 rfl rfl k
  have el : dot_S4000x96_S96x32_S4000x32_1_0_0_1_n_n.lhsIdx (ix2 r q) ((ValueIdx.contrEquiv1 dot_S4000x96_S96x32_S4000x32_1_0_0_1_n_n 96 rfl rfl).symm k) = ix2 r k := funext fun ax => Fin.ext (by
    match ax with
    | ⟨0, _⟩ => exact lhs_f_0 _ _
    | ⟨1, _⟩ => exact (lhs_f_1 _ _).trans hk)
  have er : dot_S4000x96_S96x32_S4000x32_1_0_0_1_n_n.rhsIdx (ix2 r q) ((ValueIdx.contrEquiv1 dot_S4000x96_S96x32_S4000x32_1_0_0_1_n_n 96 rfl rfl).symm k) = ix2 k q := funext fun ax => Fin.ext (by
    match ax with
    | ⟨0, _⟩ => exact (rhs_f_0 _ _).trans hk
    | ⟨1, _⟩ => exact rhs_f_1 _ _)
  rw [el, er]

/-! ### The four pieces side by side -/

/-- Four blocks of widths 32, 32, 16, 16 laid side by side, read at (r, k): the block whose span holds k, at k less the
    widths before it. -/
private theorem concat4_apply {α : Type} (y0 y1 : S4000x32.Idx → α) (y2 y3 : S4000x16.Idx → α)
    (h : Shape.Concatenates [S4000x32, S4000x32, S4000x16, S4000x16] S4000x96 1) (r : Fin 4000) (k : Fin 96) :
    concatenate S4000x96 1 [⟨S4000x32, y0⟩, ⟨S4000x32, y1⟩, ⟨S4000x16, y2⟩, ⟨S4000x16, y3⟩] h (ix2 r k)
      = if h0 : k.val < 32 then y0 (ix2 r ⟨k.val, h0⟩)
        else if h1 : k.val < 64 then y1 (ix2 r ⟨k.val - 32, by omega⟩)
        else if h2 : k.val < 80 then y2 (ix2 r ⟨k.val - 64, by omega⟩)
        else y3 (ix2 r ⟨k.val - 80, by omega⟩) := by
  by_cases h0 : k.val < 32
  · rw [dif_pos h0]
    refine concatenate_apply_piece (1 : Fin S4000x96.rank) [⟨S4000x32, y0⟩, ⟨S4000x32, y1⟩, ⟨S4000x16, y2⟩, ⟨S4000x16, y3⟩]
      h (ix2 r k) 0 (by show (0 : ℕ) < 4; omega) S4000x32 y0 rfl rfl 0 rfl
      (ix2 r ⟨k.val, h0⟩) (fun b hb => ?_) ?_
    · match b with
      | ⟨0, _⟩ => rfl
      | ⟨1, _⟩ => exact absurd rfl hb
    · show 0 + k.val = k.val
      omega
  · rw [dif_neg h0]
    by_cases h1 : k.val < 64
    · rw [dif_pos h1]
      refine concatenate_apply_piece (1 : Fin S4000x96.rank) [⟨S4000x32, y0⟩, ⟨S4000x32, y1⟩, ⟨S4000x16, y2⟩, ⟨S4000x16, y3⟩]
        h (ix2 r k) 1 (by show (1 : ℕ) < 4; omega) S4000x32 y1 rfl rfl 32 rfl
        (ix2 r ⟨k.val - 32, by omega⟩) (fun b hb => ?_) ?_
      · match b with
        | ⟨0, _⟩ => rfl
        | ⟨1, _⟩ => exact absurd rfl hb
      · show 32 + (k.val - 32) = k.val
        omega
    · rw [dif_neg h1]
      by_cases h2 : k.val < 80
      · rw [dif_pos h2]
        refine concatenate_apply_piece (1 : Fin S4000x96.rank) [⟨S4000x32, y0⟩, ⟨S4000x32, y1⟩, ⟨S4000x16, y2⟩, ⟨S4000x16, y3⟩]
          h (ix2 r k) 2 (by show (2 : ℕ) < 4; omega) S4000x16 y2 rfl rfl 64 rfl
          (ix2 r ⟨k.val - 64, by omega⟩) (fun b hb => ?_) ?_
        · match b with
          | ⟨0, _⟩ => rfl
          | ⟨1, _⟩ => exact absurd rfl hb
        · show 64 + (k.val - 64) = k.val
          omega
      · rw [dif_neg h2]
        refine concatenate_apply_piece (1 : Fin S4000x96.rank) [⟨S4000x32, y0⟩, ⟨S4000x32, y1⟩, ⟨S4000x16, y2⟩, ⟨S4000x16, y3⟩]
          h (ix2 r k) 3 (by show (3 : ℕ) < 4; omega) S4000x16 y3 rfl rfl 80 rfl
          (ix2 r ⟨k.val - 80, by omega⟩) (fun b hb => ?_) ?_
        · match b with
          | ⟨0, _⟩ => rfl
          | ⟨1, _⟩ => exact absurd rfl hb
        · show 80 + (k.val - 80) = k.val
          have := k.isLt
          omega

/-! ### The payload -/

/-- The one-hot block read at (r, g): 1 where the index of row r is the word of g, else 0. -/
private theorem onehot_apply (x3 : Vec Ideal S4000x1 .i32) (r : Fin 4000) (g : Fin 1024) :
    (truncf .bf16 (sitofp .f32 (extui 32 (cmpi .eq (broadcastTo S4000x1024 (shapeCast S4000x1 x3 shapeCasts_S4000x1_S4000x1) broadcasts_S4000x1_S4000x1024) (iota .tc S4000x1024 32 [1] iota_S4000x1024_d1_w32)) natLt_1_32)) bitsLt_bf16_f32 : FVec Ideal S4000x1024 .bf16) (ix2 r g)
      = if x3 (ix2 r (0 : Fin 1)) = BitVec.ofNat 32 g.val then 1 else 0 := by
  rw [truncf_apply, sitofp_apply, extui_apply]
  show FloatOps.sitofp .f32 ((IntOp.cmpi .eq (broadcastTo S4000x1024 (shapeCast S4000x1 x3 shapeCasts_S4000x1_S4000x1) broadcasts_S4000x1_S4000x1024 (ix2 r g)) (iota .tc S4000x1024 32 [1] iota_S4000x1024_d1_w32 (ix2 r g))).setWidth 32) = _
  rw [iota_single_apply, shapeCast_self, broadcastTo_a1_ab_apply]
  exact onehot_word _ _

/-- The one-hot block times the table, read at (r, q): the table's row that the index of row r names, at q. -/
private theorem gathered_apply (x3 : Vec Ideal S4000x1 .i32) (x4 : Vec Ideal S1024x16 .f32) (r : Fin 4000) (q : Fin 16)
    (hb : 0 ≤ (x3 (ix2 r (0 : Fin 1))).toInt ∧ (x3 (ix2 r (0 : Fin 1))).toInt < 1024) :
    matmul dot_S4000x1024_S1024x16_S4000x16_1_0_0_1_n_n none
        (truncf .bf16 (sitofp .f32 (extui 32 (cmpi .eq (broadcastTo S4000x1024 (shapeCast S4000x1 x3 shapeCasts_S4000x1_S4000x1) broadcasts_S4000x1_S4000x1024) (iota .tc S4000x1024 32 [1] iota_S4000x1024_d1_w32)) natLt_1_32)) bitsLt_bf16_f32 : FVec Ideal S4000x1024 .bf16)
        (truncf .bf16 x4 bitsLt_bf16_f32) (constant (F := Ideal) S4000x16 .f32 0x00000000#32) (ix2 r q)
      = x4 (ix2 (⟨min (x3 (ix2 r (0 : Fin 1))).toInt.toNat 1023, by omega⟩ : Fin 1024) q) := by
  rw [matmul_g_apply]
  refine Eq.trans (Finset.sum_congr rfl fun g _ => ?_) (onehot_sum (x3 (ix2 r (0 : Fin 1))) hb fun g => x4 (ix2 g q))
  rw [onehot_apply, truncf_apply]

/-- The stored hidden block at (r, j) is the hidden layer of edge 4000·t + r. -/
theorem pay5_tile (I : Cert.Spec.Inputs) (hI : I.Ok) (t : Fin 500)
    (x0 x1 : Vec Ideal S4000x32 .f32) (x2 : Vec Ideal S4000x16 .f32) (x3 : Vec Ideal S4000x1 .i32)
    (x4 : Vec Ideal S1024x16 .f32) (x5 : Vec Ideal S96x32 .f32) (x6 : Vec Ideal S1x32 .f32)
    (hT : TileOf I t x0 x1 x2 x3 x4 x5 x6) (r : Fin 4000) (j : Fin 32) :
    k0_pay5 (F := Ideal) x3 x4 x0 x1 x2 x5 x6 (ix2 r j) = Cert.Spec.h I (Cert.Spec.edgeOf t r) j := by
  have hb := hI.batch (ix1 (Cert.Spec.edgeOf t r))
  rw [← hT.batch r] at hb
  unfold k0_pay5
  rw [maximumf_apply, addf_apply, broadcast_apply, matmul_f_apply, broadcastTo_1b_ab_apply, shapeCast_self x6, hT.b1 j]
  show max (_ + _) (Ideal.ofBits .f32 0x00000000#32) = _
  rw [Ideal.ofBits_zero_f32]
  unfold Cert.Spec.h
  refine congrArg (fun s => max (s + I.b1 (ix1 j)) 0) (Finset.sum_congr rfl fun k _ => ?_)
  rw [truncf_apply, truncf_apply, hT.W1 k j, concat4_apply]
  refine congrArg (· * I.W1 (ix2 k j)) ?_
  unfold Cert.Spec.x
  by_cases h0 : k.val < 32
  · rw [dif_pos h0, dif_pos h0]
    exact hT.src r _
  · rw [dif_neg h0, dif_neg h0]
    by_cases h1 : k.val < 64
    · rw [dif_pos h1, dif_pos h1]
      exact hT.dest r _
    · rw [dif_neg h1, dif_neg h1]
      by_cases h2 : k.val < 80
      · rw [dif_pos h2, dif_pos h2]
        exact hT.edge r _
      · rw [dif_neg h2, dif_neg h2, gathered_apply x3 x4 r _ hb, hT.u]
        exact congrArg (fun g => I.u (ix2 g _)) (Fin.ext (by
          show min (x3 (ix2 r (0 : Fin 1))).toInt.toNat 1023 = min (I.batch (ix1 (Cert.Spec.edgeOf t r))).toInt.toNat 1023
          rw [hT.batch r]))

end Cert.KHidden

end
-- ==== Proof.KPieces.lean ====
/-
  What one grid point of the first kernel leaves in its three output buffers, in each of its two control cases, as
  the body's pure payloads of the blocks it loads.

  Case A (the first grid point): the two running rows are first stored as zero rows and re-read, so the rows left are
  the payloads over the zero rows. Case B (every later point): the running rows are re-read as the point before left
  them. In both cases the hidden block is stored whole, and each buffer's last store covers it.
-/
import proofs.«402963_j33122787787020_1_alg».proof.KernelIdeal
import proofs.«402963_j33122787787020_1_alg».proof.Proof.Gen.KernelIdeal
import proofs.«402963_j33122787787020_1_alg».proof.Proof.Gen.KernelIdeal.Skeleton
import proofs.«402963_j33122787787020_1_alg».proof.Proof.Gen.KernelIdeal.Frame
import Idealize.ShloMosaic.Lib.Pipeline.Value
import Idealize.ShloMosaic.Lib.Tactic

noncomputable section

namespace Cert.KPieces

open Idealize.ShloMosaic Idealize.ShloMosaic.TcCoe Idealize.ShloMosaic.Tactic Idealize.SL.Sem
open Cert.KernelIdeal Cert.KernelIdeal.Gen

variable {F : FTy → Type} [FloatOps F]
variable (c : Dev nD) (i : grid0.Coords)
  (a1 : Memref sig .tc .vmem S4000x32 .f32) (h1 : a1.IsWhole) (a2 : Memref sig .tc .vmem S4000x32 .f32) (h2 : a2.IsWhole)
  (a3 : Memref sig .tc .vmem S4000x16 .f32) (h3 : a3.IsWhole) (a4 : Memref sig .tc .vmem S4000x1 .i32) (h4 : a4.IsWhole)
  (a5 : Memref sig .tc .vmem S1024x16 .f32) (h5 : a5.IsWhole) (a6 : Memref sig .tc .vmem S96x32 .f32) (h6 : a6.IsWhole)
  (a7 : Memref sig .tc .vmem S1x32 .f32) (h7 : a7.IsWhole) (a8 : Memref sig .tc .vmem S4000x32 .f32) (h8 : a8.IsWhole)
  (a9 : Memref sig .tc .vmem S1x32 .f32) (h9 : a9.IsWhole) (a10 : Memref sig .tc .vmem S1x32 .f32) (h10 : a10.IsWhole)
  (x0 x1 : Vec F S4000x32 .f32) (x2 : Vec F S4000x16 .f32) (x3 : Vec F S4000x1 .i32) (x4 : Vec F S1024x16 .f32)
  (x5 : Vec F S96x32 .f32) (x6 : Vec F S1x32 .f32)

/-- The origin of a rank-2 block, as the constant-zero index. -/
private theorem hz : (![0, 0] : Fin 2 → Nat) = fun _ => 0 := funext fun a => by fin_cases a <;> rfl

/-! ### Case A: the first grid point -/

theorem outA7 (hc : cond0_0 i) :
    out0_A_7 (F := F) c i a1 h1 a2 h2 a3 h3 a4 h4 a5 h5 a6 h6 a7 h7 a8 h8 a9 h9 a10 h10 hc x0 x1 x2 x3 x4 x5 x6 = k0_pay5 x3 x4 x0 x1 x2 x5 x6 := by
  unfold out0_A_7
  rw [View.read_writes_eq_canon _ _ _ (cover0_A_7 c i a1 h1 a2 h2 a3 h3 a4 h4 a5 h5 a6 h6 a7 h7 a8 h8 a9 h9 a10 h10 hc x0 x1 x2 x3 x4 x5 x6)]
  unfold kernelRun0_A
  dsimp only
  sl_unfold_words
  rw [View.canon_unit_zero (S := S4000x32) hz]
  simp only [View.readAt_eq_ld, h1.read_unread, h2.read_unread, h3.read_unread, h4.read_unread, h5.read_unread, h6.read_unread, h7.read_unread, h8.read_unread, h9.read_unread, h10.read_unread, View.ld_unit_zero (S := S4000x32) hz, View.ld_unit_zero (S := S4000x16) hz, View.ld_unit_zero (S := S4000x1) hz, View.ld_unit_zero (S := S1024x16) hz, View.ld_unit_zero (S := S96x32) hz, View.ld_unit_zero (S := S1x32) hz, View.readCov_unit_zero (S := S1x32) _ hz]

theorem outA8 (hc : cond0_0 i) :
    out0_A_8 (F := F) c i a1 h1 a2 h2 a3 h3 a4 h4 a5 h5 a6 h6 a7 h7 a8 h8 a9 h9 a10 h10 hc x0 x1 x2 x3 x4 x5 x6
      = k0_pay1 (k0_pay6 (k0_pay3 (F := F))) (k0_pay7 x3 x4 x0 x1 x2 x5 x6) := by
  unfold out0_A_8
  rw [View.read_writes_eq_canon _ _ _ (cover0_A_8 c i a1 h1 a2 h2 a3 h3 a4 h4 a5 h5 a6 h6 a7 h7 a8 h8 a9 h9 a10 h10 hc x0 x1 x2 x3 x4 x5 x6)]
  unfold kernelRun0_A
  dsimp only
  sl_unfold_words
  rw [View.canon_cons_unit_zero (S := S1x32) hz, View.readCov_unit_zero (S := S1x32) _ hz]
  simp only [View.readAt_eq_ld, h1.read_unread, h2.read_unread, h3.read_unread, h4.read_unread, h5.read_unread, h6.read_unread, h7.read_unread, h8.read_unread, h9.read_unread, h10.read_unread, View.ld_unit_zero (S := S4000x32) hz, View.ld_unit_zero (S := S4000x16) hz, View.ld_unit_zero (S := S4000x1) hz, View.ld_unit_zero (S := S1024x16) hz, View.ld_unit_zero (S := S96x32) hz, View.ld_unit_zero (S := S1x32) hz, View.readCov_unit_zero (S := S1x32) _ hz]

theorem outA9 (hc : cond0_0 i) :
    out0_A_9 (F := F) c i a1 h1 a2 h2 a3 h3 a4 h4 a5 h5 a6 h6 a7 h7 a8 h8 a9 h9 a10 h10 hc x0 x1 x2 x3 x4 x5 x6
      = k0_pay2 (k0_pay5 x3 x4 x0 x1 x2 x5 x6) (k0_pay4 (F := F)) := by
  unfold out0_A_9
  rw [View.read_writes_eq_canon _ _ _ (cover0_A_9 c i a1 h1 a2 h2 a3 h3 a4 h4 a5 h5 a6 h6 a7 h7 a8 h8 a9 h9 a10 h10 hc x0 x1 x2 x3 x4 x5 x6)]
  unfold kernelRun0_A
  dsimp only
  sl_unfold_words
  rw [View.canon_cons_unit_zero (S := S1x32) hz, View.readCov_unit_zero (S := S1x32) _ hz]
  simp only [View.readAt_eq_ld, h1.read_unread, h2.read_unread, h3.read_unread, h4.read_unread, h5.read_unread, h6.read_unread, h7.read_unread, h8.read_unread, h9.read_unread, h10.read_unread, View.ld_unit_zero (S := S4000x32) hz, View.ld_unit_zero (S := S4000x16) hz, View.ld_unit_zero (S := S4000x1) hz, View.ld_unit_zero (S := S1024x16) hz, View.ld_unit_zero (S := S96x32) hz, View.ld_unit_zero (S := S1x32) hz, View.readCov_unit_zero (S := S1x32) _ hz]

/-! ### Case B: every later grid point, over the running rows `xo8`, `xo9` -/

theorem outB7 (hc : ¬cond0_0 i) (xo8 xo9 : Vec F S1x32 .f32) :
    out0_B_7 (F := F) c i a1 h1 a2 h2 a3 h3 a4 h4 a5 h5 a6 h6 a7 h7 a8 h8 a9 h9 a10 h10 hc x0 x1 x2 x3 x4 x5 x6 xo8 xo9 = k0_pay5 x3 x4 x0 x1 x2 x5 x6 := by
  unfold out0_B_7
  rw [View.read_writes_eq_canon _ _ _ (cover0_B_7 c i a1 h1 a2 h2 a3 h3 a4 h4 a5 h5 a6 h6 a7 h7 a8 h8 a9 h9 a10 h10 hc x0 x1 x2 x3 x4 x5 x6 xo8 xo9)]
  unfold kernelRun0_B
  dsimp only
  sl_unfold_words
  rw [View.canon_unit_zero (S := S4000x32) hz]
  simp only [View.readAt_eq_ld, h1.read_unread, h2.read_unread, h3.read_unread, h4.read_unread, h5.read_unread, h6.read_unread, h7.read_unread, h8.read_unread, h9.read_unread, h10.read_unread, View.ld_unit_zero (S := S4000x32) hz, View.ld_unit_zero (S := S4000x16) hz, View.ld_unit_zero (S := S4000x1) hz, View.ld_unit_zero (S := S1024x16) hz, View.ld_unit_zero (S := S96x32) hz, View.ld_unit_zero (S := S1x32) hz, View.readCov_unit_zero (S := S1x32) _ hz]

theorem outB8 (hc : ¬cond0_0 i) (xo8 xo9 : Vec F S1x32 .f32) :
    out0_B_8 (F := F) c i a1 h1 a2 h2 a3 h3 a4 h4 a5 h5 a6 h6 a7 h7 a8 h8 a9 h9 a10 h10 hc x0 x1 x2 x3 x4 x5 x6 xo8 xo9
      = k0_pay1 (k0_pay6 xo8) (k0_pay7 x3 x4 x0 x1 x2 x5 x6) := by
  unfold out0_B_8
  rw [View.read_writes_eq_canon _ _ _ (cover0_B_8 c i a1 h1 a2 h2 a3 h3 a4 h4 a5 h5 a6 h6 a7 h7 a8 h8 a9 h9 a10 h10 hc x0 x1 x2 x3 x4 x5 x6 xo8 xo9)]
  unfold kernelRun0_B
  dsimp only
  sl_unfold_words
  rw [View.canon_unit_zero (S := S1x32) hz]
  simp only [View.readAt_eq_ld, h1.read_unread, h2.read_unread, h3.read_unread, h4.read_unread, h5.read_unread, h6.read_unread, h7.read_unread, h8.read_unread, h9.read_unread, h10.read_unread, View.ld_unit_zero (S := S4000x32) hz, View.ld_unit_zero (S := S4000x16) hz, View.ld_unit_zero (S := S4000x1) hz, View.ld_unit_zero (S := S1024x16) hz, View.ld_unit_zero (S := S96x32) hz, View.ld_unit_zero (S := S1x32) hz, View.readCov_unit_zero (S := S1x32) _ hz]

theorem outB9 (hc : ¬cond0_0 i) (xo8 xo9 : Vec F S1x32 .f32) :
    out0_B_9 (F := F) c i a1 h1 a2 h2 a3 h3 a4 h4 a5 h5 a6 h6 a7 h7 a8 h8 a9 h9 a10 h10 hc x0 x1 x2 x3 x4 x5 x6 xo8 xo9
      = k0_pay2 (k0_pay5 x3 x4 x0 x1 x2 x5 x6) xo9 := by
  unfold out0_B_9
  rw [View.read_writes_eq_canon _ _ _ (cover0_B_9 c i a1 h1 a2 h2 a3 h3 a4 h4 a5 h5 a6 h6 a7 h7 a8 h8 a9 h9 a10 h10 hc x0 x1 x2 x3 x4 x5 x6 xo8 xo9)]
  unfold kernelRun0_B
  dsimp only
  sl_unfold_words
  rw [View.canon_unit_zero (S := S1x32) hz]
  simp only [View.readAt_eq_ld, h1.read_unread, h2.read_unread, h3.read_unread, h4.read_unread, h5.read_unread, h6.read_unread, h7.read_unread, h8.read_unread, h9.read_unread, h10.read_unread, View.ld_unit_zero (S := S4000x32) hz, View.ld_unit_zero (S := S4000x16) hz, View.ld_unit_zero (S := S4000x1) hz, View.ld_unit_zero (S := S1024x16) hz, View.ld_unit_zero (S := S96x32) hz, View.ld_unit_zero (S := S1x32) hz, View.readCov_unit_zero (S := S1x32) _ hz]

end Cert.KPieces

end
-- ==== Proof.KBlocks0.lean ====
/-
  The blocks a grid point of the first kernel loads are tile t of the inputs. The kernel's windows are cut from the
  arrays as the first kernel finds them: the three per-edge arrays, the table and the weights as launched, the index
  array reshaped from [E] to a column [E, 1] and the bias reshaped from [32] to a row [1, 32] (a reshape keeps the
  row-major position). Window w's block at point t starts at row (block index) × (block rows): 4000·t for the four
  row-mapped windows, 0 for the three whole-array windows.
-/
import proofs.«402963_j33122787787020_1_alg».proof.KernelIdeal
import proofs.«402963_j33122787787020_1_alg».proof.Proof.Gen.KernelIdeal
import proofs.«402963_j33122787787020_1_alg».proof.Proof.Gen.KernelIdeal.Skeleton
import proofs.«402963_j33122787787020_1_alg».proof.Proof.Gen.KernelIdeal.Launch
import proofs.«402963_j33122787787020_1_alg».proof.Proof.Gen.KernelIdeal.Points
import proofs.«402963_j33122787787020_1_alg».proof.Proof.Gen.KernelIdeal.Frame
import proofs.«402963_j33122787787020_1_alg».proof.Proof.Spec
import proofs.«402963_j33122787787020_1_alg».proof.Proof.KIn
import proofs.«402963_j33122787787020_1_alg».proof.Proof.KTile
import Idealize.ShloMosaic.Lib.Pipeline.Value
import Idealize.ShloMosaic.Lib.ValueLayout

noncomputable section

namespace Cert.KBlocks0

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-! ## The printed index maps over the grid -/

/-- The printed index maps, read once over the 500 grid points: windows 0 to 3 have block index (t, 0) at point t;
    windows 4 to 6 have block index (0, 0) at every point. -/
private theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-! ## The arrays as the first kernel finds them

Before the first kernel only two reshapes run; each writes its own result, so the five argument arrays the kernel's
windows are cut from are found as launched, and the two results are their operands in row-major order. -/

/-- The source rows are found as launched. -/
private theorem V1_arg0 (c : Dev nD) : V1 m ρ c main_arg0 = m ((c : Thread nD τ).loc main_arg0) :=
  (StableHlo.after_of_forall_not_mem (b := Proc.devRef .tc main_arg0) _ _ (List.forall_iff_forall_mem.mp (by
      simp only [hostOps0, List.Forall, StableHlo.reshape_writes, Finset.mem_singleton]
      repeat' apply And.intro
      all_goals exact StableHlo.devRef_ne_of_ne (by decide))))

/-- The destination rows are found as launched. -/
private theorem V1_arg1 (c : Dev nD) : V1 m ρ c main_arg1 = m ((c : Thread nD τ).loc main_arg1) :=
  (StableHlo.after_of_forall_not_mem (b := Proc.devRef .tc main_arg1) _ _ (List.forall_iff_forall_mem.mp (by
      simp only [hostOps0, List.Forall, StableHlo.reshape_writes, Finset.mem_singleton]
      repeat' apply And.intro
      all_goals exact StableHlo.devRef_ne_of_ne (by decide))))

/-- The attribute rows are found as launched. -/
private theorem V1_arg2 (c : Dev nD) : V1 m ρ c main_arg2 = m ((c : Thread nD τ).loc main_arg2) :=
  (StableHlo.after_of_forall_not_mem (b := Proc.devRef .tc main_arg2) _ _ (List.forall_iff_forall_mem.mp (by
      simp only [hostOps0, List.Forall, StableHlo.reshape_writes, Finset.mem_singleton]
      repeat' apply And.intro
      all_goals exact StableHlo.devRef_ne_of_ne (by decide))))

/-- The table is found as launched. -/
private theorem V1_arg3 (c : Dev nD) : V1 m ρ c main_arg3 = m ((c : Thread nD τ).loc main_arg3) :=
  (StableHlo.after_of_forall_not_mem (b := Proc.devRef .tc main_arg3) _ _ (List.forall_iff_forall_mem.mp (by
      simp only [hostOps0, List.Forall, StableHlo.reshape_writes, Finset.mem_singleton]
      repeat' apply And.intro
      all_goals exact StableHlo.devRef_ne_of_ne (by decide))))

/-- The first layer's weights are found as launched. -/
private theorem V1_arg5 (c : Dev nD) : V1 m ρ c main_arg5 = m ((c : Thread nD τ).loc main_arg5) :=
  (StableHlo.after_of_forall_not_mem (b := Proc.devRef .tc main_arg5) _ _ (List.forall_iff_forall_mem.mp (by
      simp only [hostOps0, List.Forall, StableHlo.reshape_writes, Finset.mem_singleton]
      repeat' apply And.intro
      all_goals exact StableHlo.devRef_ne_of_ne (by decide))))

/-- The index column is the index array reshaped from [E] to [E, 1]. -/
private theorem V1_v0 (c : Dev nD) :
    (V1 m ρ c main_v0 : S2000000x1.Idx → BitVec 32)
      = shapeCast S2000000x1 (m ((c : Thread nD τ).loc main_arg4)) shapeCasts_S2000000_S2000000x1 := by
  show StableHlo.after hostOps0 (W0 m ρ c) (Proc.devRef .tc main_v0) = _
  after_results
  rfl

/-- The bias row is the bias reshaped from [32] to [1, 32]. -/
private theorem V1_v1 (c : Dev nD) :
    (V1 m ρ c main_v1 : S1x32.Idx → EReal)
      = shapeCast S1x32 (m ((c : Thread nD τ).loc main_arg6)) shapeCasts_S32_S1x32 := by
  show StableHlo.after hostOps0 (W0 m ρ c) (Proc.devRef .tc main_v1) = _
  after_results
  rfl

/-- A vector [a] reshaped to a column [a, 1] reads, at (i, u), the vector at i: the row-major position of (i, u) in
    the column is i · 1 + u = i. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## Each window's block at a point, read at coordinates

A block's coordinate on an axis is (block index) × (block extent) + (coordinate inside the block). -/

/-- Window 0's block at point t, read at (r, k), is the source array at row 4000·t + r. -/
private theorem blk_src (c : Dev nD) (t : Fin cfg0.N) (r : Fin 4000) (k : Fin 32) :
    iblk0 (V1 m ρ) c 0 t (ix2 r k)
      = m ((c : Thread nD τ).loc main_arg0) (ix2 (Cert.Spec.edgeOf (Cert.KIn.tile0 t) r) k) := by
  show V1 m ρ c main_arg0 (((cfg0.win 0).blk t).view.emb (ix2 r k)) = _
  rw [V1_arg0]
  refine congrArg _ ?_
  obtain ⟨e0, e1, -⟩ := idx_facts t
  funext a; apply Fin.ext
  match a with
  | ⟨0, _⟩ => show win0_0.index t (0 : Fin 2) * 4000 + 1 * r.val = 4000 * t.val + r.val; omega
  | ⟨1, _⟩ => show win0_0.index t (1 : Fin 2) * 32 + 1 * k.val = k.val; omega

/-- Window 1's block at point t, read at (r, k), is the destination array at row 4000·t + r. -/
private theorem blk_dest (c : Dev nD) (t : Fin cfg0.N) (r : Fin 4000) (k : Fin 32) :
    iblk0 (V1 m ρ) c 1 t (ix2 r k)
      = m ((c : Thread nD τ).loc main_arg1) (ix2 (Cert.Spec.edgeOf (Cert.KIn.tile0 t) r) k) := by
  show V1 m ρ c main_arg1 (((cfg0.win 1).blk t).view.emb (ix2 r k)) = _
  rw [V1_arg1]
  refine congrArg _ ?_
  obtain ⟨-, -, e0, e1, -⟩ := idx_facts t
  funext a; apply Fin.ext
  match a with
  | ⟨0, _⟩ => show win0_1.index t (0 : Fin 2) * 4000 + 1 * r.val = 4000 * t.val + r.val; omega
  | ⟨1, _⟩ => show win0_1.index t (1 : Fin 2) * 32 + 1 * k.val = k.val; omega

/-- Window 2's block at point t, read at (r, k), is the attribute array at row 4000·t + r. -/
private theorem blk_edge (c : Dev nD) (t : Fin cfg0.N) (r : Fin 4000) (k : Fin 16) :
    iblk0 (V1 m ρ) c 2 t (ix2 r k)
      = m ((c : Thread nD τ).loc main_arg2) (ix2 (Cert.Spec.edgeOf (Cert.KIn.tile0 t) r) k) := by
  show V1 m ρ c main_arg2 (((cfg0.win 2).blk t).view.emb (ix2 r k)) = _
  rw [V1_arg2]
  refine congrArg _ ?_
  obtain ⟨-, -, -, -, e0, e1, -⟩ := idx_facts t
  funext a; apply Fin.ext
  match a with
  | ⟨0, _⟩ => show win0_2.index t (0 : Fin 2) * 4000 + 1 * r.val = 4000 * t.val + r.val; omega
  | ⟨1, _⟩ => show win0_2.index t (1 : Fin 2) * 16 + 1 * k.val = k.val; omega

/-- Window 3's block at point t, read at (r, 0), is the index array at edge 4000·t + r. -/
private theorem blk_batch (c : Dev nD) (t : Fin cfg0.N) (r : Fin 4000) :
    iblk0 (V1 m ρ) c 3 t (ix2 r (0 : Fin 1))
      = m ((c : Thread nD τ).loc main_arg4) (ix1 (Cert.Spec.edgeOf (Cert.KIn.tile0 t) r)) := by
  show V1 m ρ c main_v0 (((cfg0.win 3).blk t).view.emb (ix2 r (0 : Fin 1))) = _
  rw [V1_v0]
  have he : ((cfg0.win 3).blk t).view.emb (ix2 r (0 : Fin 1))
      = (ix2 (Cert.Spec.edgeOf (Cert.KIn.tile0 t) r) (0 : Fin 1) : S2000000x1.Idx) := by
    obtain ⟨-, -, -, -, -, -, e0, e1, -⟩ := idx_facts t
    funext a; apply Fin.ext
    match a with
    | ⟨0, _⟩ => show win0_3.index t (0 : Fin 2) * 4000 + 1 * r.val = 4000 * t.val + r.val; omega
    | ⟨1, _⟩ => show win0_3.index t (1 : Fin 2) * 1 + 1 * 0 = 0; omega
  rw [he]
  exact shapeCast_a_a1_apply _ _ _ _

/-- Window 4's block at any point is the whole table. -/
private theorem blk_u (c : Dev nD) (t : Fin cfg0.N) (g : Fin 1024) (q : Fin 16) :
    iblk0 (V1 m ρ) c 4 t (ix2 g q) = m ((c : Thread nD τ).loc main_arg3) (ix2 g q) := by
  show V1 m ρ c main_arg3 (((cfg0.win 4).blk t).view.emb (ix2 g q)) = _
  rw [V1_arg3]
  refine congrArg _ ?_
  obtain ⟨-, -, -, -, -, -, -, -, e0, e1, -⟩ := idx_facts t
  funext a; apply Fin.ext
  match a with
  | ⟨0, _⟩ => show win0_4.index t (0 : Fin 2) * 1024 + 1 * g.val = g.val; omega
  | ⟨1, _⟩ => show win0_4.index t (1 : Fin 2) * 16 + 1 * q.val = q.val; omega

/-- Window 5's block at any point is the whole of the first layer's weights. -/
private theorem blk_W1 (c : Dev nD) (t : Fin cfg0.N) (k : Fin 96) (j : Fin 32) :
    iblk0 (V1 m ρ) c 5 t (ix2 k j) = m ((c : Thread nD τ).loc main_arg5) (ix2 k j) := by
  show V1 m ρ c main_arg5 (((cfg0.win 5).blk t).view.emb (ix2 k j)) = _
  rw [V1_arg5]
  refine congrArg _ ?_
  obtain ⟨-, -, -, -, -, -, -, -, -, -, e0, e1, -⟩ := idx_facts t
  funext a; apply Fin.ext
  match a with
  | ⟨0, _⟩ => show win0_5.index t (0 : Fin 2) * 96 + 1 * k.val = k.val; omega
  | ⟨1, _⟩ => show win0_5.index t (1 : Fin 2) * 32 + 1 * j.val = j.val; omega

/-- Window 6's block at any point, read at (0, j), is the first layer's bias at j. -/
private theorem blk_b1 (c : Dev nD) (t : Fin cfg0.N) (j : Fin 32) :
    iblk0 (V1 m ρ) c 6 t (ix2 (0 : Fin 1) j) = m ((c : Thread nD τ).loc main_arg6) (ix1 j) := by
  show V1 m ρ c main_v1 (((cfg0.win 6).blk t).view.emb (ix2 (0 : Fin 1) j)) = _
  rw [V1_v1]
  have he : ((cfg0.win 6).blk t).view.emb (ix2 (0 : Fin 1) j) = (ix2 (0 : Fin 1) j : S1x32.Idx) := by
    obtain ⟨-, -, -, -, -, -, -, -, -, -, -, -, e0, e1⟩ := idx_facts t
    funext a; apply Fin.ext
    match a with
    | ⟨0, _⟩ => show win0_6.index t (0 : Fin 2) * 1 + 1 * 0 = 0; omega
    | ⟨1, _⟩ => show win0_6.index t (1 : Fin 2) * 32 + 1 * j.val = j.val; omega
  rw [he]
  exact shapeCast_a_1a_apply _ _ _ _

/-- At every grid point the seven input blocks are the point's tile of the input record. -/
theorem tileOf (c : Dev nD) (t : Fin cfg0.N) :
    Cert.KTile.TileOf (Cert.KIn.inputs m c) (Cert.KIn.tile0 t)
      (iblk0 (V1 m ρ) c 0 t) (iblk0 (V1 m ρ) c 1 t) (iblk0 (V1 m ρ) c 2 t) (iblk0 (V1 m ρ) c 3 t)
      (iblk0 (V1 m ρ) c 4 t) (iblk0 (V1 m ρ) c 5 t) (iblk0 (V1 m ρ) c 6 t) := by
  exact
    { src := blk_src m ρ c t
      dest := blk_dest m ρ c t
      edge := blk_edge m ρ c t
      batch := blk_batch m ρ c t
      u := blk_u m ρ c t
      W1 := blk_W1 m ρ c t
      b1 := blk_b1 m ρ c t }

end Cert.KBlocks0

end
-- ==== Proof.KInv0.lean ====
/-
  The first kernel's three output buffers after each grid point, by induction on the point. At point 0 (the case that
  first stores the two zero rows) the hidden buffer holds the hidden layer of tile 0 and the running rows hold
  0 + (column sums of tile 0); at point n + 1 the hidden buffer holds the hidden layer of tile n + 1 and each running
  row is what point n left plus the column sums of tile n + 1.
-/
import proofs.«402963_j33122787787020_1_alg».proof.KernelIdeal
import proofs.«402963_j33122787787020_1_alg».proof.Proof.Gen.KernelIdeal
import proofs.«402963_j33122787787020_1_alg».proof.Proof.Gen.KernelIdeal.Skeleton
import proofs.«402963_j33122787787020_1_alg».proof.Proof.Gen.KernelIdeal.Launch
import proofs.«402963_j33122787787020_1_alg».proof.Proof.Gen.KernelIdeal.Points
import proofs.«402963_j33122787787020_1_alg».proof.Proof.Gen.KernelIdeal.Frame
import proofs.«402963_j33122787787020_1_alg».proof.Proof.Spec
import proofs.«402963_j33122787787020_1_alg».proof.Proof.KIn
import proofs.«402963_j33122787787020_1_alg».proof.Proof.KTile
import proofs.«402963_j33122787787020_1_alg».proof.Proof.KHidden
import proofs.«402963_j33122787787020_1_alg».proof.Proof.KSmall
import proofs.«402963_j33122787787020_1_alg».proof.Proof.KPieces
import proofs.«402963_j33122787787020_1_alg».proof.Proof.KBlocks0

noncomputable section

namespace Cert.KInv0

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- The hidden-layer payload of the blocks of grid point `t`, entry by entry: the hidden layer of the point's tile. -/
theorem hidden_at (c : Dev nD) (hI : (Cert.KIn.inputs m c).Ok) (t : Fin cfg0.N) (r : Fin 4000) (j : Fin 32) :
    k0_pay5 (F := Ideal) (iblk0 (V1 m ρ) c 3 t) (iblk0 (V1 m ρ) c 4 t) (iblk0 (V1 m ρ) c 0 t) (iblk0 (V1 m ρ) c 1 t)
        (iblk0 (V1 m ρ) c 2 t) (iblk0 (V1 m ρ) c 5 t) (iblk0 (V1 m ρ) c 6 t) (ix2 r j)
      = Cert.Spec.h (Cert.KIn.inputs m c) (Cert.Spec.edgeOf (Cert.KIn.tile0 t) r) j :=
  Cert.KHidden.pay5_tile (Cert.KIn.inputs m c) hI (Cert.KIn.tile0 t) _ _ _ _ _ _ _ (Cert.KBlocks0.tileOf m ρ c t) r j

/-- After grid point `n`: the hidden block of tile `n`, and the running column sums over tiles 0 … n. -/
theorem outs_eq (c : Dev nD) (hI : (Cert.KIn.inputs m c).Ok) : ∀ (n : ℕ) (hn : n < cfg0.N),
    (∀ (r : Fin 4000) (j : Fin 32), (outsAt0 (V1 m ρ) c n hn).1 (ix2 r j)
        = Cert.Spec.h (Cert.KIn.inputs m c) (Cert.Spec.edgeOf ⟨n, lt_of_lt_of_eq hn N_0⟩ r) j)
    ∧ (∀ j : Fin 32, (outsAt0 (V1 m ρ) c n hn).2.1 (ix2 (0 : Fin 1) j) = Cert.Spec.acc (Cert.KIn.inputs m c) n j)
    ∧ (∀ j : Fin 32, (outsAt0 (V1 m ρ) c n hn).2.2 (ix2 (0 : Fin 1) j) = Cert.Spec.accSq (Cert.KIn.inputs m c) n j)
  | 0, hn => by
    -- the first point: both running rows start from the zero row it has just stored
    have h5 := hidden_at m ρ c hI ⟨0, hn⟩
    rw [show outsAt0 (V1 m ρ) c 0 hn = _ from outsAt0_A (V1 m ρ) c ⟨0, hn⟩ rfl]
    dsimp only
    refine ⟨fun r j => ?_, fun j => ?_, fun j => ?_⟩
    · exact (congrFun (Cert.KPieces.outA7 (F := Ideal) ..) (ix2 r j)).trans (h5 r j)
    · refine (congrFun (Cert.KPieces.outA8 (F := Ideal) ..) (ix2 (0 : Fin 1) j)).trans ?_
      rw [Cert.KSmall.pay1_apply, Cert.KSmall.pay6_eq, Cert.KSmall.pay3_apply,
        Cert.KSmall.pay7_tile (Cert.KIn.inputs m c) (Cert.KIn.tile0 ⟨0, hn⟩) _ _ _ _ _ _ _ h5 j]
      rfl
    · refine (congrFun (Cert.KPieces.outA9 (F := Ideal) ..) (ix2 (0 : Fin 1) j)).trans ?_
      rw [Cert.KSmall.pay2_tile (Cert.KIn.inputs m c) (Cert.KIn.tile0 ⟨0, hn⟩) _ _ h5 j, Cert.KSmall.pay4_apply]
      rfl
  | n + 1, hn => by
    -- a later point: each running row is re-read as the point before left it
    have ih := outs_eq c hI n (Nat.lt_of_succ_lt hn)
    have hN : cfg0.N = 500 := N_0
    have hlt : n + 1 < 500 := lt_of_lt_of_eq hn hN
    have hB : ¬(⟨n + 1, hn⟩ : Fin cfg0.N).val % 500 = 0 := by dsimp only; omega
    have h5 := hidden_at m ρ c hI ⟨n + 1, hn⟩
    rw [show outsAt0 (V1 m ρ) c (n + 1) hn = _ from outsAt0_B (V1 m ρ) c ⟨n + 1, hn⟩ hB]
    dsimp only
    refine ⟨fun r j => ?_, fun j => ?_, fun j => ?_⟩
    · exact (congrFun (Cert.KPieces.outB7 (F := Ideal) ..) (ix2 r j)).trans (h5 r j)
    · refine (congrFun (Cert.KPieces.outB8 (F := Ideal) ..) (ix2 (0 : Fin 1) j)).trans ?_
      rw [Cert.KSmall.pay1_apply, Cert.KSmall.pay6_eq,
        Cert.KSmall.pay7_tile (Cert.KIn.inputs m c) (Cert.KIn.tile0 ⟨n + 1, hn⟩) _ _ _ _ _ _ _ h5 j]
      show (outsAt0 (V1 m ρ) c n _).2.1 (ix2 (0 : Fin 1) j) + _
        = Cert.Spec.acc (Cert.KIn.inputs m c) n j + (if hn' : n + 1 < 500 then Cert.Spec.tileSum (Cert.KIn.inputs m c) ⟨n + 1, hn'⟩ j else 0)
      rw [ih.2.1 j, dif_pos hlt]
      rfl
    · refine (congrFun (Cert.KPieces.outB9 (F := Ideal) ..) (ix2 (0 : Fin 1) j)).trans ?_
      rw [Cert.KSmall.pay2_tile (Cert.KIn.inputs m c) (Cert.KIn.tile0 ⟨n + 1, hn⟩) _ _ h5 j]
      show (outsAt0 (V1 m ρ) c n _).2.2 (ix2 (0 : Fin 1) j) + _
        = Cert.Spec.accSq (Cert.KIn.inputs m c) n j + (if hn' : n + 1 < 500 then Cert.Spec.tileSumSq (Cert.KIn.inputs m c) ⟨n + 1, hn'⟩ j else 0)
      rw [ih.2.2 j, dif_pos hlt]
      rfl

end Cert.KInv0

end
-- ==== Proof.KRegion0.lean ====
/-
  What the first kernel leaves in its three result arrays. By induction on the grid point: after point n the hidden
  buffer holds the hidden layer of tile n, and the two running rows hold the running column sums (of h and of h²)
  over tiles 0 … n in the order visited. The hidden array is written back tile by tile, and the tiles cover it; the
  two rows are written back once, after the last point, and by then the running sums are the sums over all edges.
-/
import proofs.«402963_j33122787787020_1_alg».proof.KernelIdeal
import proofs.«402963_j33122787787020_1_alg».proof.Proof.Gen.KernelIdeal
import proofs.«402963_j33122787787020_1_alg».proof.Proof.Gen.KernelIdeal.Skeleton
import proofs.«402963_j33122787787020_1_alg».proof.Proof.Gen.KernelIdeal.Launch
import proofs.«402963_j33122787787020_1_alg».proof.Proof.Gen.KernelIdeal.Points
import proofs.«402963_j33122787787020_1_alg».proof.Proof.Gen.KernelIdeal.Frame
import proofs.«402963_j33122787787020_1_alg».proof.Proof.Spec
import proofs.«402963_j33122787787020_1_alg».proof.Proof.SpecLaws
import proofs.«402963_j33122787787020_1_alg».proof.Proof.KIn
import proofs.«402963_j33122787787020_1_alg».proof.Proof.KTile
import proofs.«402963_j33122787787020_1_alg».proof.Proof.KHidden
import proofs.«402963_j33122787787020_1_alg».proof.Proof.KSmall
import proofs.«402963_j33122787787020_1_alg».proof.Proof.KPieces
import proofs.«402963_j33122787787020_1_alg».proof.Proof.KBlocks0
import proofs.«402963_j33122787787020_1_alg».proof.Proof.KInv0
import Idealize.ShloMosaic.Lib.Pipeline.Value

noncomputable section

namespace Cert.KRegion0

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- The printed index maps of the three result windows, read once over the grid: the hidden array's window moves with
    the point along the rows and stays at column block 0; the two rows' windows stay at block (0, 0). -/
private theorem idx_facts : ∀ t : Fin cfg0.N,
    win0_7.index t (0 : Fin 2) = t.val ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0 :=
  (by decide +kernel : ∀ t : Fin grid0.N, _)

/-- The last grid point. -/
private def t499 : Fin cfg0.N := ⟨499, by have : cfg0.N = 500 := N_0; omega⟩

/-- What point `t` writes back to the hidden array is tile `t` of the hidden layer: row `r` of the block is edge
    `4000 · t + r`. -/
private theorem flushed7_eq (c : Dev nD) (hI : (Cert.KIn.inputs m c).Ok) (t : Fin cfg0.N) :
    (dat0 (V1 m ρ) c).flushed 7 t
      = ((cfg0.win 7).blk t).view.read (Elt Ideal)
          (fun i : S2000000x32.Idx => Cert.Spec.h (Cert.KIn.inputs m c) (i 0) (i 1)) := by
  have hN : cfg0.N = 500 := N_0
  have ht : t.val < 500 := lt_of_lt_of_eq t.isLt hN
  show (cfg0.win 7).cut (grid0.coords t) ((dat0 (V1 m ρ) c).after 7 t) = _
  rw [after0_7]
  funext j
  rw [View.read_apply, cast_eq]
  have hj0 : (j 0).val < 4000 := (j 0).isLt
  have hj1 : (j 1).val < 32 := (j 1).isLt
  have hx : (cfg0.win 7).xinj (grid0.coords t) j = ix2 (⟨(j 0).val, hj0⟩ : Fin 4000) (⟨(j 1).val, hj1⟩ : Fin 32) := by
    funext a; apply Fin.ext
    match a with
    | ⟨0, _⟩ => rfl
    | ⟨1, _⟩ => rfl
  show (outsAt0 (V1 m ρ) c t.val t.isLt).1 ((cfg0.win 7).xinj (grid0.coords t) j) = _
  rw [hx, (Cert.KInv0.outs_eq m ρ c hI t.val t.isLt).1]
  obtain ⟨e70, e71, -, -, -, -⟩ := idx_facts t
  show Cert.Spec.h (Cert.KIn.inputs m c) _ _
    = Cert.Spec.h (Cert.KIn.inputs m c) ((((cfg0.win 7).blk t).view.emb j) 0) ((((cfg0.win 7).blk t).view.emb j) 1)
  congr 1
  · apply Fin.ext
    show 4000 * t.val + (j 0).val = win0_7.index t (0 : Fin 2) * 4000 + 1 * (j 0).val
    omega
  · apply Fin.ext
    show (j 1).val = win0_7.index t (1 : Fin 2) * 32 + 1 * (j 1).val
    omega

/-- An index of the hidden array is in point `t`'s block iff each coordinate is in the block's range on its axis. -/
private theorem mem_blk7 (t : Fin cfg0.N) (i : S2000000x32.Idx) :
    i ∈ ((cfg0.win 7).blk t).view.set ↔ ∀ a : Fin 2, win0_7.index t a * S4000x32.size a ≤ (i a).val
      ∧ (i a).val < win0_7.index t a * S4000x32.size a + S4000x32.size a := by
  show i ∈ ((View.whole main_v2_0).slice (win0_7.rect t)).set ↔ _
  rw [View.set_slice_whole, Rect.mem_set_unit]
  exact Iff.rfl

/-- The hidden array after the first kernel. -/
theorem final7 (c : Dev nD) (hI : (Cert.KIn.inputs m c).Ok) :
    ((dat0 (V1 m ρ) c).arrAt 7 cfg0.N : S2000000x32.Idx → EReal)
      = fun i => Cert.Spec.h (Cert.KIn.inputs m c) (i 0) (i 1) := by
  have hN : cfg0.N = 500 := N_0
  refine (dat0 (V1 m ρ) c).arrAt_eq_of_cover 7 _ (fun t _ => flushed7_eq m ρ c hI t) fun i => ?_
  have h0 : (i 0).val < 2000000 := (i 0).isLt
  have h1 : (i 1).val < 32 := (i 1).isLt
  refine ⟨⟨(i 0).val / 4000, by omega⟩, flush0_7 _, ?_⟩
  rw [mem_blk7]
  intro a
  obtain ⟨e70, e71, -, -, -, -⟩ := idx_facts ⟨(i 0).val / 4000, by omega⟩
  match a with
  | ⟨0, _⟩ =>
    show win0_7.index ⟨(i 0).val / 4000, _⟩ (0 : Fin 2) * 4000 ≤ (i 0).val
      ∧ (i 0).val < win0_7.index ⟨(i 0).val / 4000, _⟩ (0 : Fin 2) * 4000 + 4000
    rw [e70]
    show (i 0).val / 4000 * 4000 ≤ (i 0).val ∧ (i 0).val < (i 0).val / 4000 * 4000 + 4000
    omega
  | ⟨1, _⟩ =>
    show win0_7.index ⟨(i 0).val / 4000, _⟩ (1 : Fin 2) * 32 ≤ (i 1).val
      ∧ (i 1).val < win0_7.index ⟨(i 0).val / 4000, _⟩ (1 : Fin 2) * 32 + 32
    rw [e71]
    omega

/-- The one write-back of the row of sums, at the last point: the running sums after tile 499 are the sums over all edges. -/
private theorem flushed8_eq (c : Dev nD) (hI : (Cert.KIn.inputs m c).Ok) (t : Fin cfg0.N) (hf : (cfg0.win 8).flush t = true) :
    (dat0 (V1 m ρ) c).flushed 8 t
      = ((cfg0.win 8).blk t).view.read (Elt Ideal) (fun i : S1x32.Idx => Cert.Spec.s1 (Cert.KIn.inputs m c) (i 1)) := by
  have hN : cfg0.N = 500 := N_0
  have h499 : t.val = 499 := by have := (flush0_8 t).mp hf; have := t.isLt; omega
  show (cfg0.win 8).cut (grid0.coords t) ((dat0 (V1 m ρ) c).after 8 t) = _
  rw [after0_8]
  funext j
  rw [View.read_apply, cast_eq]
  have hj1 : (j 1).val < 32 := (j 1).isLt
  have hj0 : (j 0).val < 1 := (j 0).isLt
  have hx : (cfg0.win 8).xinj (grid0.coords t) j = ix2 (0 : Fin 1) (⟨(j 1).val, hj1⟩ : Fin 32) := by
    funext a; apply Fin.ext
    match a with
    | ⟨0, _⟩ => show (j 0).val = 0; omega
    | ⟨1, _⟩ => rfl
  show (outsAt0 (V1 m ρ) c t.val t.isLt).2.1 ((cfg0.win 8).xinj (grid0.coords t) j) = _
  rw [hx, (Cert.KInv0.outs_eq m ρ c hI t.val t.isLt).2.1 _, h499, Cert.Spec.acc_last]
  congr 1
  apply Fin.ext
  show (j 1).val = win0_8.index t (1 : Fin 2) * 32 + 1 * (j 1).val
  obtain ⟨-, -, e80, e81, e90, e91⟩ := idx_facts t
  omega

/-- An index of the row is in point `t`'s block iff each coordinate is in the block's range on its axis. -/
private theorem mem_blk8 (t : Fin cfg0.N) (i : S1x32.Idx) :
    i ∈ ((cfg0.win 8).blk t).view.set ↔ ∀ a : Fin 2, win0_8.index t a * S1x32.size a ≤ (i a).val
      ∧ (i a).val < win0_8.index t a * S1x32.size a + S1x32.size a := by
  show i ∈ ((View.whole main_v2_1).slice (win0_8.rect t)).set ↔ _
  rw [View.set_slice_whole, Rect.mem_set_unit]
  exact Iff.rfl

/-- The row of column sums after the first kernel. -/
theorem final8 (c : Dev nD) (hI : (Cert.KIn.inputs m c).Ok) :
    ((dat0 (V1 m ρ) c).arrAt 8 cfg0.N : S1x32.Idx → EReal)
      = fun i => Cert.Spec.s1 (Cert.KIn.inputs m c) (i 1) := by
  refine (dat0 (V1 m ρ) c).arrAt_eq_of_cover 8 _ (flushed8_eq m ρ c hI) fun i => ⟨t499, (flush0_8 t499).mpr rfl, ?_⟩
  rw [mem_blk8]
  intro a
  obtain ⟨-, -, e80, e81, e90, e91⟩ := idx_facts t499
  have h0 : (i 0).val < 1 := (i 0).isLt
  have h1 : (i 1).val < 32 := (i 1).isLt
  match a with
  | ⟨0, _⟩ =>
    show win0_8.index t499 (0 : Fin 2) * 1 ≤ (i 0).val ∧ (i 0).val < win0_8.index t499 (0 : Fin 2) * 1 + 1
    omega
  | ⟨1, _⟩ =>
    show win0_8.index t499 (1 : Fin 2) * 32 ≤ (i 1).val ∧ (i 1).val < win0_8.index t499 (1 : Fin 2) * 32 + 32
    omega

/-- The one write-back of the row of sums of squares, at the last point: the running sums after tile 499 are the sums over all edges. -/
private theorem flushed9_eq (c : Dev nD) (hI : (Cert.KIn.inputs m c).Ok) (t : Fin cfg0.N) (hf : (cfg0.win 9).flush t = true) :
    (dat0 (V1 m ρ) c).flushed 9 t
      = ((cfg0.win 9).blk t).view.read (Elt Ideal) (fun i : S1x32.Idx => Cert.Spec.s2 (Cert.KIn.inputs m c) (i 1)) := by
  have hN : cfg0.N = 500 := N_0
  have h499 : t.val = 499 := by have := (flush0_9 t).mp hf; have := t.isLt; omega
  show (cfg0.win 9).cut (grid0.coords t) ((dat0 (V1 m ρ) c).after 9 t) = _
  rw [after0_9]
  funext j
  rw [View.read_apply, cast_eq]
  have hj1 : (j 1).val < 32 := (j 1).isLt
  have hj0 : (j 0).val < 1 := (j 0).isLt
  have hx : (cfg0.win 9).xinj (grid0.coords t) j = ix2 (0 : Fin 1) (⟨(j 1).val, hj1⟩ : Fin 32) := by
    funext a; apply Fin.ext
    match a with
    | ⟨0, _⟩ => show (j 0).val = 0; omega
    | ⟨1, _⟩ => rfl
  show (outsAt0 (V1 m ρ) c t.val t.isLt).2.2 ((cfg0.win 9).xinj (grid0.coords t) j) = _
  rw [hx, (Cert.KInv0.outs_eq m ρ c hI t.val t.isLt).2.2 _, h499, Cert.Spec.accSq_last]
  congr 1
  apply Fin.ext
  show (j 1).val = win0_9.index t (1 : Fin 2) * 32 + 1 * (j 1).val
  obtain ⟨-, -, e80, e81, e90, e91⟩ := idx_facts t
  omega

/-- An index of the row is in point `t`'s block iff each coordinate is in the block's range on its axis. -/
private theorem mem_blk9 (t : Fin cfg0.N) (i : S1x32.Idx) :
    i ∈ ((cfg0.win 9).blk t).view.set ↔ ∀ a : Fin 2, win0_9.index t a * S1x32.size a ≤ (i a).val
      ∧ (i a).val < win0_9.index t a * S1x32.size a + S1x32.size a := by
  show i ∈ ((View.whole main_v2_2).slice (win0_9.rect t)).set ↔ _
  rw [View.set_slice_whole, Rect.mem_set_unit]
  exact Iff.rfl

/-- The row of column sums of squares after the first kernel. -/
theorem final9 (c : Dev nD) (hI : (Cert.KIn.inputs m c).Ok) :
    ((dat0 (V1 m ρ) c).arrAt 9 cfg0.N : S1x32.Idx → EReal)
      = fun i => Cert.Spec.s2 (Cert.KIn.inputs m c) (i 1) := by
  refine (dat0 (V1 m ρ) c).arrAt_eq_of_cover 9 _ (flushed9_eq m ρ c hI) fun i => ⟨t499, (flush0_9 t499).mpr rfl, ?_⟩
  rw [mem_blk9]
  intro a
  obtain ⟨-, -, e80, e81, e90, e91⟩ := idx_facts t499
  have h0 : (i 0).val < 1 := (i 0).isLt
  have h1 : (i 1).val < 32 := (i 1).isLt
  match a with
  | ⟨0, _⟩ =>
    show win0_9.index t499 (0 : Fin 2) * 1 ≤ (i 0).val ∧ (i 0).val < win0_9.index t499 (0 : Fin 2) * 1 + 1
    omega
  | ⟨1, _⟩ =>
    show win0_9.index t499 (1 : Fin 2) * 32 ≤ (i 1).val ∧ (i 1).val < win0_9.index t499 (1 : Fin 2) * 32 + 32
    omega

end Cert.KRegion0

end
-- ==== Proof.KHost.lean ====
/-
  The host operations between the two kernels, read at an index, from what the first kernel left: mean = s1 / E,
  var = s2 / E − mean², r = rsqrt (var + eps), scale = gamma · r, shift = beta − (mean · gamma) · r, as rows [1, 32];
  the hidden array, the second layer's weights and its bias row reach the second kernel untouched (the bias reshaped
  to a row).
-/
import proofs.«402963_j33122787787020_1_alg».proof.KernelIdeal
import proofs.«402963_j33122787787020_1_alg».proof.Proof.Gen.KernelIdeal
import proofs.«402963_j33122787787020_1_alg».proof.Proof.Gen.KernelIdeal.Skeleton
import proofs.«402963_j33122787787020_1_alg».proof.Proof.Gen.KernelIdeal.Launch
import proofs.«402963_j33122787787020_1_alg».proof.Proof.Gen.KernelIdeal.Points
import proofs.«402963_j33122787787020_1_alg».proof.Proof.Gen.KernelIdeal.Frame
import proofs.«402963_j33122787787020_1_alg».proof.Proof.Spec
import proofs.«402963_j33122787787020_1_alg».proof.Proof.KIn
import proofs.«402963_j33122787787020_1_alg».proof.Proof.KRegion0
import Idealize.ShloMosaic.Lib.Pipeline.Value
import Idealize.ShloMosaic.Lib.ValueLayout
import Idealize.ShloMosaic.Lib.StableHlo.Run
import Idealize.ShloMosaic.PureOps.Ideal.Laws

noncomputable section

namespace Cert.KHost

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-! ## What the second host stretch starts from -/

/-- The argument holding gamma is written by nothing before the second host stretch. -/
private theorem w2_gamma (c : Dev nD) :
    (W2 m ρ c (Proc.devRef .tc main_arg7) : S32.Idx → EReal) = (Cert.KIn.inputs m c).gamma := by
  refine (W2_of_ne m ρ c main_arg7 (by decide)).trans ?_
  refine (StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans ?_
  rfl

/-- The argument holding beta is written by nothing before the second host stretch. -/
private theorem w2_beta (c : Dev nD) :
    (W2 m ρ c (Proc.devRef .tc main_arg8) : S32.Idx → EReal) = (Cert.KIn.inputs m c).beta := by
  refine (W2_of_ne m ρ c main_arg8 (by decide)).trans ?_
  refine (StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans ?_
  rfl

/-- The argument holding W2 is written by nothing before the second host stretch. -/
private theorem w2_W2 (c : Dev nD) :
    (W2 m ρ c (Proc.devRef .tc main_arg9) : S32x32.Idx → EReal) = (Cert.KIn.inputs m c).W2 := by
  refine (W2_of_ne m ρ c main_arg9 (by decide)).trans ?_
  refine (StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans ?_
  rfl

/-- The argument holding b2 is written by nothing before the second host stretch. -/
private theorem w2_b2 (c : Dev nD) :
    (W2 m ρ c (Proc.devRef .tc main_arg10) : S32.Idx → EReal) = (Cert.KIn.inputs m c).b2 := by
  refine (W2_of_ne m ρ c main_arg10 (by decide)).trans ?_
  refine (StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans ?_
  rfl

/-- The hidden array as the first kernel left it. -/
private theorem w2_h (c : Dev nD) (hI : (Cert.KIn.inputs m c).Ok) :
    (W2 m ρ c (Proc.devRef .tc main_v2_0) : S2000000x32.Idx → EReal)
      = fun i => Cert.Spec.h (Cert.KIn.inputs m c) (i 0) (i 1) :=
  (W2_arr m ρ c 7).trans (Cert.KRegion0.final7 m ρ c hI)

/-- The row of column sums as the first kernel left it. -/
private theorem w2_s1 (c : Dev nD) (hI : (Cert.KIn.inputs m c).Ok) :
    (W2 m ρ c (Proc.devRef .tc main_v2_1) : S1x32.Idx → EReal)
      = fun i => Cert.Spec.s1 (Cert.KIn.inputs m c) (i 1) :=
  (W2_arr m ρ c 8).trans (Cert.KRegion0.final8 m ρ c hI)

/-- The row of column sums of squares as the first kernel left it. -/
private theorem w2_s2 (c : Dev nD) (hI : (Cert.KIn.inputs m c).Ok) :
    (W2 m ρ c (Proc.devRef .tc main_v2_2) : S1x32.Idx → EReal)
      = fun i => Cert.Spec.s2 (Cert.KIn.inputs m c) (i 1) :=
  (W2_arr m ρ c 9).trans (Cert.KRegion0.final9 m ρ c hI)

/-! ## The host stretch's terms over the rows it reads -/

/-- mean = s1 / E, as a vector of 32. -/
private abbrev meanRow (a : FVec Ideal S1x32 .f32) : FVec Ideal S32 .f32 :=
  Host.divf (shapeCast S32 a shapeCasts_S1x32_S32)
    (broadcastInDim S32 ![] bcast_S_S32 (constant (F := Ideal) S_ .f32 0x49F42400#32))

/-- r = rsqrt (s2 / E − mean² + eps), as a vector of 32. -/
private abbrev rRow (a b : FVec Ideal S1x32 .f32) : FVec Ideal S32 .f32 :=
  Host.rsqrt (addf (subf (Host.divf (shapeCast S32 b shapeCasts_S1x32_S32)
      (broadcastInDim S32 ![] bcast_S_S32 (constant (F := Ideal) S_ .f32 0x49F42400#32))) (mulf (meanRow a) (meanRow a)))
    (broadcastInDim S32 ![] bcast_S_S32 (constant (F := Ideal) S_ .f32 0x3727C5AC#32)))

/-- scale = gamma · r, as a row. -/
private abbrev scaleRow (g : FVec Ideal S32 .f32) (a b : FVec Ideal S1x32 .f32) : FVec Ideal S1x32 .f32 :=
  shapeCast S1x32 (mulf g (rRow a b)) shapeCasts_S32_S1x32

/-- shift = beta − (mean · gamma) · r, as a row. -/
private abbrev shiftRow (g bt : FVec Ideal S32 .f32) (a b : FVec Ideal S1x32 .f32) : FVec Ideal S1x32 .f32 :=
  shapeCast S1x32 (subf bt (mulf (mulf (meanRow a) g) (rRow a b))) shapeCasts_S32_S1x32

/-- The mean vector at j. -/
private theorem meanRow_apply (a : FVec Ideal S1x32 .f32) (j : Fin 32) :
    meanRow a (ix1 j) = Ideal.div (a (ix2 (0 : Fin 1) j)) Cert.Spec.nE := by
  show Ideal.div (shapeCast S32 a shapeCasts_S1x32_S32 (ix1 j)) (Ideal.ofBits .f32 0x49F42400#32) = _
  rw [shapeCast_1a_a_apply a]
  rfl

/-- The vector r at j. -/
private theorem rRow_apply (a b : FVec Ideal S1x32 .f32) (j : Fin 32) :
    rRow a b (ix1 j)
      = Ideal.rsqrt ((Ideal.div (b (ix2 (0 : Fin 1) j)) Cert.Spec.nE
          - Ideal.div (a (ix2 (0 : Fin 1) j)) Cert.Spec.nE * Ideal.div (a (ix2 (0 : Fin 1) j)) Cert.Spec.nE) + Cert.Spec.eps) := by
  show Ideal.rsqrt ((Ideal.div (shapeCast S32 b shapeCasts_S1x32_S32 (ix1 j)) (Ideal.ofBits .f32 0x49F42400#32)
      - meanRow a (ix1 j) * meanRow a (ix1 j)) + Ideal.ofBits .f32 0x3727C5AC#32) = _
  rw [shapeCast_1a_a_apply b, meanRow_apply]
  rfl

/-- The scale row at (z, j). -/
private theorem scaleRow_apply (g : FVec Ideal S32 .f32) (a b : FVec Ideal S1x32 .f32) (z : Fin 1) (j : Fin 32) :
    scaleRow g a b (ix2 z j)
      = g (ix1 j) * Ideal.rsqrt ((Ideal.div (b (ix2 (0 : Fin 1) j)) Cert.Spec.nE
          - Ideal.div (a (ix2 (0 : Fin 1) j)) Cert.Spec.nE * Ideal.div (a (ix2 (0 : Fin 1) j)) Cert.Spec.nE) + Cert.Spec.eps) := by
  refine (shapeCast_a_1a_apply _ _ z j).trans ?_
  show g (ix1 j) * rRow a b (ix1 j) = _
  rw [rRow_apply]

/-- The shift row at (z, j). -/
private theorem shiftRow_apply (g bt : FVec Ideal S32 .f32) (a b : FVec Ideal S1x32 .f32) (z : Fin 1) (j : Fin 32) :
    shiftRow g bt a b (ix2 z j)
      = bt (ix1 j) - Ideal.div (a (ix2 (0 : Fin 1) j)) Cert.Spec.nE * g (ix1 j)
          * Ideal.rsqrt ((Ideal.div (b (ix2 (0 : Fin 1) j)) Cert.Spec.nE
            - Ideal.div (a (ix2 (0 : Fin 1) j)) Cert.Spec.nE * Ideal.div (a (ix2 (0 : Fin 1) j)) Cert.Spec.nE) + Cert.Spec.eps) := by
  refine (shapeCast_a_1a_apply _ _ z j).trans ?_
  show bt (ix1 j) - meanRow a (ix1 j) * g (ix1 j) * rRow a b (ix1 j) = _
  rw [rRow_apply, meanRow_apply]

/-! ## The buffers the second host stretch writes, as those terms -/

private theorem v15_eq (c : Dev nD) :
    (V3 m ρ c main_v15 : S1x32.Idx → EReal)
      = scaleRow (W2 m ρ c (Proc.devRef .tc main_arg7)) (W2 m ρ c (Proc.devRef .tc main_v2_1))
          (W2 m ρ c (Proc.devRef .tc main_v2_2)) := by
  show StableHlo.after hostOps1 (W2 m ρ c) (Proc.devRef .tc main_v15) = _
  after_results
  rfl

private theorem v19_eq (c : Dev nD) :
    (V3 m ρ c main_v19 : S1x32.Idx → EReal)
      = shiftRow (W2 m ρ c (Proc.devRef .tc main_arg7)) (W2 m ρ c (Proc.devRef .tc main_arg8))
          (W2 m ρ c (Proc.devRef .tc main_v2_1)) (W2 m ρ c (Proc.devRef .tc main_v2_2)) := by
  show StableHlo.after hostOps1 (W2 m ρ c) (Proc.devRef .tc main_v19) = _
  after_results_simp
  rfl

private theorem v20_eq (c : Dev nD) :
    (V3 m ρ c main_v20 : S1x32.Idx → EReal)
      = shapeCast S1x32 (W2 m ρ c (Proc.devRef .tc main_arg10) : S32.Idx → EReal) shapeCasts_S32_S1x32 := by
  show StableHlo.after hostOps1 (W2 m ρ c) (Proc.devRef .tc main_v20) = _
  after_results
  rfl

theorem v3_h (c : Dev nD) (hI : (Cert.KIn.inputs m c).Ok) :
    (V3 m ρ c main_v2_0 : S2000000x32.Idx → EReal) = fun i => Cert.Spec.h (Cert.KIn.inputs m c) (i 0) (i 1) := by
  refine (StableHlo.after_of_forall_not_mem (b := Proc.devRef .tc main_v2_0) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans ?_
  exact w2_h m ρ c hI

theorem v3_scale (c : Dev nD) (hI : (Cert.KIn.inputs m c).Ok) :
    (V3 m ρ c main_v15 : S1x32.Idx → EReal) = fun i => Cert.Spec.scale (Cert.KIn.inputs m c) (i 1) := by
  rw [v15_eq, w2_gamma, w2_s1 m ρ c hI, w2_s2 m ρ c hI]
  funext i
  obtain ⟨z, j, rfl⟩ : ∃ (z : Fin 1) (j : Fin 32), i = ix2 z j := ⟨i 0, i 1, eq_ix2 i⟩
  refine (scaleRow_apply _ _ _ z j).trans ?_
  rfl

theorem v3_shift (c : Dev nD) (hI : (Cert.KIn.inputs m c).Ok) :
    (V3 m ρ c main_v19 : S1x32.Idx → EReal) = fun i => Cert.Spec.shift (Cert.KIn.inputs m c) (i 1) := by
  rw [v19_eq, w2_gamma, w2_beta, w2_s1 m ρ c hI, w2_s2 m ρ c hI]
  funext i
  obtain ⟨z, j, rfl⟩ : ∃ (z : Fin 1) (j : Fin 32), i = ix2 z j := ⟨i 0, i 1, eq_ix2 i⟩
  refine (shiftRow_apply _ _ _ _ z j).trans ?_
  rfl

theorem v3_W2 (c : Dev nD) :
    (V3 m ρ c main_arg9 : S32x32.Idx → EReal) = (Cert.KIn.inputs m c).W2 := by
  refine (StableHlo.after_of_forall_not_mem (b := Proc.devRef .tc main_arg9) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans ?_
  exact w2_W2 m ρ c

theorem v3_b2 (c : Dev nD) :
    (V3 m ρ c main_v20 : S1x32.Idx → EReal) = fun i => (Cert.KIn.inputs m c).b2 (ix1 (i 1)) := by
  rw [v20_eq, w2_b2]
  funext i
  obtain ⟨z, j, rfl⟩ : ∃ (z : Fin 1) (j : Fin 32), i = ix2 z j := ⟨i 0, i 1, eq_ix2 i⟩
  exact shapeCast_a_1a_apply _ _ z j

end Cert.KHost

end
-- ==== Proof.KRegion1.lean ====
/-
  What the second kernel leaves in the result array. Its block at tile t is, row by row, (h · scale + shift) times the
  second layer's weights plus its bias — the kernel-order result of the tile's edges —, the tiles are written back one
  by one and cover the array, so the result array holds the kernel-order result of every edge; and that array is what
  the fold through the program's segments leaves in the result buffer.
-/
import proofs.«402963_j33122787787020_1_alg».proof.KernelIdeal
import proofs.«402963_j33122787787020_1_alg».proof.Proof.Gen.KernelIdeal
import proofs.«402963_j33122787787020_1_alg».proof.Proof.Gen.KernelIdeal.Skeleton
import proofs.«402963_j33122787787020_1_alg».proof.Proof.Gen.KernelIdeal.Launch
import proofs.«402963_j33122787787020_1_alg».proof.Proof.Gen.KernelIdeal.Points
import proofs.«402963_j33122787787020_1_alg».proof.Proof.Gen.KernelIdeal.Frame
import proofs.«402963_j33122787787020_1_alg».proof.Proof.Spec
import proofs.«402963_j33122787787020_1_alg».proof.Proof.KIn
import proofs.«402963_j33122787787020_1_alg».proof.Proof.KSmall
import proofs.«402963_j33122787787020_1_alg».proof.Proof.KHost
import Idealize.ShloMosaic.Lib.Pipeline.Value

noncomputable section

namespace Cert.KRegion1

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- The origin of a rank-2 block, as the constant-zero index. -/
private theorem hz : (![0, 0] : Fin 2 → Nat) = fun _ => 0 := funext fun a => by fin_cases a <;> rfl

/-- The kernel-order result of every edge, as contents of the result array. -/
private abbrev outArr (c : Dev nD) : S2000000x32.Idx → EReal :=
  fun i => Cert.Spec.outK (Cert.KIn.inputs m c) (i 0) (i 1)

/-- The index maps, decided once over the grid: the hidden block and the result block of point `t` are row block `t`,
    column block 0; the four small operands are always block (0, 0). -/
private theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-! ### The blocks the second kernel loads at point `t`, entry by entry -/

/-- Row `r` of the hidden block at point `t` is the hidden row of edge `4000 · t + r`. -/
private theorem blk0_apply (c : Dev nD) (hI : (Cert.KIn.inputs m c).Ok) (t : Fin cfg1.N) (r : Fin 4000) (j : Fin 32) :
    iblk1 (V3 m ρ) c 0 t (ix2 r j) = Cert.Spec.h (Cert.KIn.inputs m c) (Cert.Spec.edgeOf (Cert.KIn.tile1 t) r) j := by
  obtain ⟨e0, e1, -⟩ := idx_facts t
  have hemb : ((cfg1.win 0).blk t).view.emb (ix2 r j) = ix2 (Cert.Spec.edgeOf (Cert.KIn.tile1 t) r) j := by
    funext a; apply Fin.ext
    match a with
    | ⟨0, _⟩ => show win1_0.index t (0 : Fin 2) * 4000 + 1 * r.val = 4000 * t.val + r.val; omega
    | ⟨1, _⟩ => show win1_0.index t (1 : Fin 2) * 32 + 1 * j.val = j.val; omega
  show V3 m ρ c main_v2_0 (((cfg1.win 0).blk t).view.emb (ix2 r j)) = _
  rw [hemb, Cert.KHost.v3_h m ρ c hI]
  rfl

/-- The scale row. -/
private theorem blk1_apply (c : Dev nD) (hI : (Cert.KIn.inputs m c).Ok) (t : Fin cfg1.N) (j : Fin 32) :
    iblk1 (V3 m ρ) c 1 t (ix2 (0 : Fin 1) j) = Cert.Spec.scale (Cert.KIn.inputs m c) j := by
  obtain ⟨-, -, e0, e1, -⟩ := idx_facts t
  have hemb : ((cfg1.win 1).blk t).view.emb (ix2 (0 : Fin 1) j) = ix2 (0 : Fin 1) j := by
    funext a; apply Fin.ext
    match a with
    | ⟨0, _⟩ => show win1_1.index t (0 : Fin 2) * 1 + 1 * 0 = 0; omega
    | ⟨1, _⟩ => show win1_1.index t (1 : Fin 2) * 32 + 1 * j.val = j.val; omega
  show V3 m ρ c main_v15 (((cfg1.win 1).blk t).view.emb (ix2 (0 : Fin 1) j)) = _
  rw [hemb, Cert.KHost.v3_scale m ρ c hI]
  rfl

/-- The shift row. -/
private theorem blk2_apply (c : Dev nD) (hI : (Cert.KIn.inputs m c).Ok) (t : Fin cfg1.N) (j : Fin 32) :
    iblk1 (V3 m ρ) c 2 t (ix2 (0 : Fin 1) j) = Cert.Spec.shift (Cert.KIn.inputs m c) j := by
  obtain ⟨-, -, -, -, e0, e1, -⟩ := idx_facts t
  have hemb : ((cfg1.win 2).blk t).view.emb (ix2 (0 : Fin 1) j) = ix2 (0 : Fin 1) j := by
    funext a; apply Fin.ext
    match a with
    | ⟨0, _⟩ => show win1_2.index t (0 : Fin 2) * 1 + 1 * 0 = 0; omega
    | ⟨1, _⟩ => show win1_2.index t (1 : Fin 2) * 32 + 1 * j.val = j.val; omega
  show V3 m ρ c main_v19 (((cfg1.win 2).blk t).view.emb (ix2 (0 : Fin 1) j)) = _
  rw [hemb, Cert.KHost.v3_shift m ρ c hI]
  rfl

/-- The second layer's weights. -/
private theorem blk3_apply (c : Dev nD) (t : Fin cfg1.N) (j o : Fin 32) :
    iblk1 (V3 m ρ) c 3 t (ix2 j o) = (Cert.KIn.inputs m c).W2 (ix2 j o) := by
  obtain ⟨-, -, -, -, -, -, e0, e1, -⟩ := idx_facts t
  have hemb : ((cfg1.win 3).blk t).view.emb (ix2 j o) = ix2 j o := by
    funext a; apply Fin.ext
    match a with
    | ⟨0, _⟩ => show win1_3.index t (0 : Fin 2) * 32 + 1 * j.val = j.val; omega
    | ⟨1, _⟩ => show win1_3.index t (1 : Fin 2) * 32 + 1 * o.val = o.val; omega
  show V3 m ρ c main_arg9 (((cfg1.win 3).blk t).view.emb (ix2 j o)) = _
  rw [hemb, Cert.KHost.v3_W2 m ρ c]

/-- The second layer's bias row. -/
private theorem blk4_apply (c : Dev nD) (t : Fin cfg1.N) (o : Fin 32) :
    iblk1 (V3 m ρ) c 4 t (ix2 (0 : Fin 1) o) = (Cert.KIn.inputs m c).b2 (ix1 o) := by
  obtain ⟨-, -, -, -, -, -, -, -, e0, e1, -⟩ := idx_facts t
  have hemb : ((cfg1.win 4).blk t).view.emb (ix2 (0 : Fin 1) o) = ix2 (0 : Fin 1) o := by
    funext a; apply Fin.ext
    match a with
    | ⟨0, _⟩ => show win1_4.index t (0 : Fin 2) * 1 + 1 * 0 = 0; omega
    | ⟨1, _⟩ => show win1_4.index t (1 : Fin 2) * 32 + 1 * o.val = o.val; omega
  show V3 m ρ c main_v20 (((cfg1.win 4).blk t).view.emb (ix2 (0 : Fin 1) o)) = _
  rw [hemb, Cert.KHost.v3_b2 m ρ c]
  rfl

/-- The block the second kernel computes at point `t`, at (r, o): the kernel-order result of edge `4000 · t + r`. -/
private theorem block_apply (c : Dev nD) (hI : (Cert.KIn.inputs m c).Ok) (t : Fin cfg1.N) (r : Fin 4000) (o : Fin 32) :
    k1_pay1 (F := Ideal) (iblk1 (V3 m ρ) c 0 t) (iblk1 (V3 m ρ) c 1 t) (iblk1 (V3 m ρ) c 2 t) (iblk1 (V3 m ρ) c 3 t)
        (iblk1 (V3 m ρ) c 4 t) (ix2 r o)
      = Cert.Spec.outK (Cert.KIn.inputs m c) (Cert.Spec.edgeOf (Cert.KIn.tile1 t) r) o := by
  refine (Cert.KSmall.k1_pay1_apply _ _ _ _ _ r o).trans ?_
  unfold Cert.Spec.outK
  rw [blk4_apply m ρ c t o]
  refine congrArg (· + _) (Finset.sum_congr rfl fun j _ => ?_)
  rw [blk0_apply m ρ c hI t r j, blk1_apply m ρ c hI t j, blk2_apply m ρ c hI t j, blk3_apply m ρ c t j o]

/-! ### From the blocks to the array -/

/-- What point `t` writes back is block `t` of the kernel-order result of every edge. -/
private theorem flushed_eq (c : Dev nD) (hI : (Cert.KIn.inputs m c).Ok) (t : Fin cfg1.N) :
    (dat1 (V3 m ρ) c).flushed 5 t = ((cfg1.win 5).blk t).view.read (Elt Ideal) (outArr m c) := by
  show (cfg1.win 5).cut (grid1.coords t) ((dat1 (V3 m ρ) c).after 5 t) = _
  rw [after1_5]
  unfold out1_5
  rw [View.canon_unit_zero hz]
  simp only [View.ld_unit_zero (S := S4000x32) hz, View.ld_unit_zero (S := S1x32) hz, View.ld_unit_zero (S := S32x32) hz]
  obtain ⟨-, -, -, -, -, -, -, -, -, -, e0, e1⟩ := idx_facts t
  funext j
  obtain ⟨r, o, rfl⟩ : ∃ (r : Fin 4000) (o : Fin 32), j = ix2 r o := ⟨j 0, j 1, eq_ix2 j⟩
  have hx : (cfg1.win 5).xinj (grid1.coords t) (ix2 r o) = ix2 r o := by
    funext a
    match a with
    | ⟨0, _⟩ => rfl
    | ⟨1, _⟩ => rfl
  have hemb : ((cfg1.win 5).blk t).view.emb (ix2 r o) = ix2 (Cert.Spec.edgeOf (Cert.KIn.tile1 t) r) o := by
    funext a; apply Fin.ext
    match a with
    | ⟨0, _⟩ => show win1_5.index t (0 : Fin 2) * 4000 + 1 * r.val = 4000 * t.val + r.val; omega
    | ⟨1, _⟩ => show win1_5.index t (1 : Fin 2) * 32 + 1 * o.val = o.val; omega
  show k1_pay1 (F := Ideal) (iblk1 (V3 m ρ) c 0 t) (iblk1 (V3 m ρ) c 1 t) (iblk1 (V3 m ρ) c 2 t) (iblk1 (V3 m ρ) c 3 t)
      (iblk1 (V3 m ρ) c 4 t) ((cfg1.win 5).xinj (grid1.coords t) (ix2 r o))
    = outArr m c (((cfg1.win 5).blk t).view.emb (ix2 r o))
  rw [hx, hemb]
  exact block_apply m ρ c hI t r o

/-- An index of the result array is in point `t`'s block iff each coordinate is in the block's range on its axis. -/
private theorem mem_blk (t : Fin cfg1.N) (i : S2000000x32.Idx) :
    i ∈ ((cfg1.win 5).blk t).view.set ↔ ∀ a : Fin 2, win1_5.index t a * S4000x32.size a ≤ (i a).val
      ∧ (i a).val < win1_5.index t a * S4000x32.size a + S4000x32.size a := by
  show i ∈ ((View.whole main_v21).slice (win1_5.rect t)).set ↔ _
  rw [View.set_slice_whole, Rect.mem_set_unit]
  exact Iff.rfl

/-- Every row `e` of the result array is in the block of point `e / 4000`, and every point writes its block back. -/
private theorem cover (i : S2000000x32.Idx) :
    ∃ t : Fin cfg1.N, (cfg1.win 5).flush t = true ∧ i ∈ ((cfg1.win 5).blk t).view.set := by
  have hi0 : (i 0).val < 2000000 := (i 0).isLt
  have hi1 : (i 1).val < 32 := (i 1).isLt
  obtain ⟨t, ht⟩ : ∃ t : Fin cfg1.N, t.val = (i 0).val / 4000 :=
    ⟨⟨(i 0).val / 4000, lt_of_lt_of_eq (by omega : (i 0).val / 4000 < 500) N_1.symm⟩, rfl⟩
  obtain ⟨-, -, -, -, -, -, -, -, -, -, e0, e1⟩ := idx_facts t
  refine ⟨t, flush1_5 t, ?_⟩
  rw [mem_blk]
  intro a
  match a with
  | ⟨0, _⟩ =>
    show win1_5.index t (0 : Fin 2) * 4000 ≤ (i 0).val ∧ (i 0).val < win1_5.index t (0 : Fin 2) * 4000 + 4000
    omega
  | ⟨1, _⟩ =>
    show win1_5.index t (1 : Fin 2) * 32 ≤ (i 1).val ∧ (i 1).val < win1_5.index t (1 : Fin 2) * 32 + 32
    omega

/-- The result array after the second kernel. -/
theorem final5 (c : Dev nD) (hI : (Cert.KIn.inputs m c).Ok) :
    ((dat1 (V3 m ρ) c).arrAt 5 cfg1.N : S2000000x32.Idx → EReal)
      = fun i => Cert.Spec.outK (Cert.KIn.inputs m c) (i 0) (i 1) :=
  (dat1 (V3 m ρ) c).arrAt_eq_of_cover 5 (outArr m c) (fun t _ => flushed_eq m ρ c hI t) cover

/-- The result buffer at the end of the program. -/
theorem result (c : Dev nD) (hI : (Cert.KIn.inputs m c).Ok) :
    (W4 m ρ c (Proc.devRef .tc main_v21) : S2000000x32.Idx → EReal)
      = fun i => Cert.Spec.outK (Cert.KIn.inputs m c) (i 0) (i 1) :=
  (W4_arr m ρ c 5).trans (final5 m ρ c hI)

end Cert.KRegion1

end
-- ==== Proof.lean ====
/-
  The certificate of the edge block: a two-kernel implementation of  concat → linear → relu → batch norm → linear
  against its plain reference, over the extended reals, for real inputs whose graph indices are rows of the table.

  Both programs compute, per edge, h = relu (x · W1 + b1) on the concatenated features x (the kernel gathers the graph
  row by a one-hot product, which is the table's row for an index in [0, 1024)); the kernel accumulates Σ h and Σ h²
  tile by tile and normalises with var = Σ h² / E − mean², scale = γ · r, shift = β − mean · γ · r; the reference uses
  var = Σ (h − mean)² / E and (h − mean) · r · γ + β. On real inputs the two variances are one non-negative real, so
  r = rsqrt (var + eps) is a real and the two affine forms agree by distributivity; the second linear layer is the same
  finite sum on both sides.

  The kernel program's frames are the generated ones; its value is read off the same launch with the result buffer
  kept (KRun), through the second kernel (KRegion1), the host operations between the kernels (KHost), the first
  kernel's three outputs (KRegion0 over the induction KInv0, the block reads KBlocks0 and the payloads KHidden, KSmall,
  KPieces). The reference's value is its generated run read stage by stage (RefRead). The precondition gives that every
  float entry is a real and every index a row of the table (PreDecode); the agreement of the two orders is SpecLaws.
-/
import proofs.«402963_j33122787787020_1_alg».proof.Defs
import proofs.«402963_j33122787787020_1_alg».proof.Proof.Gen.Kernel
import proofs.«402963_j33122787787020_1_alg».proof.Proof.Gen.Kernel.Skeleton
import proofs.«402963_j33122787787020_1_alg».proof.Proof.Gen.Kernel.Launch
import proofs.«402963_j33122787787020_1_alg».proof.Proof.Gen.Kernel.Points
import proofs.«402963_j33122787787020_1_alg».proof.Proof.Gen.Kernel.Frame
import proofs.«402963_j33122787787020_1_alg».proof.Proof.Gen.KernelIdeal
import proofs.«402963_j33122787787020_1_alg».proof.Proof.Gen.KernelIdeal.Skeleton
import proofs.«402963_j33122787787020_1_alg».proof.Proof.Gen.KernelIdeal.Launch
import proofs.«402963_j33122787787020_1_alg».proof.Proof.Gen.KernelIdeal.Points
import proofs.«402963_j33122787787020_1_alg».proof.Proof.Gen.KernelIdeal.Frame
import proofs.«402963_j33122787787020_1_alg».proof.Proof.Gen.ReferenceIdeal
import proofs.«402963_j33122787787020_1_alg».proof.Proof.Gen.ReferenceIdeal.Run
import proofs.«402963_j33122787787020_1_alg».proof.Proof.Gen.ReferenceIdeal.Read
import proofs.«402963_j33122787787020_1_alg».proof.Proof.Gen.Pre_finite_inputs
import proofs.«402963_j33122787787020_1_alg».proof.Proof.Spec
import proofs.«402963_j33122787787020_1_alg».proof.Proof.SpecLaws
import proofs.«402963_j33122787787020_1_alg».proof.Proof.PreDecode
import proofs.«402963_j33122787787020_1_alg».proof.Proof.RefRead
import proofs.«402963_j33122787787020_1_alg».proof.Proof.KIn
import proofs.«402963_j33122787787020_1_alg».proof.Proof.KRun
import proofs.«402963_j33122787787020_1_alg».proof.Proof.KRegion1
import Idealize.ShloMosaic.Adequacy
import Idealize.ShloMosaic.Init

noncomputable section

namespace Cert.Proof

open Idealize.ShloMosaic Idealize.ShloMosaic.TcCoe Idealize.SL.Sem

/-! ## The frames -/

theorem frame_k [Cert.Kernel.Facts] [Cert.Pre_finite_inputs.Facts] : Cert.frame_Kernel :=
  fun m ρ _ => Cert.Kernel.Gen.frame m ρ

theorem frame_ki [Cert.KernelIdeal.Facts] [Cert.Pre_finite_inputs.Facts] : Cert.frame_KernelIdeal :=
  fun m ρ _ => Cert.KernelIdeal.Gen.frame m ρ

/-- The reference has no kernel: its frame is its run with the result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-! ## The value claim -/

/-- Both programs end with the kernel-order result of the launch inputs in their result arrays: the kernel program by
    its run read through its segments, the reference by its run read stage by stage and the agreement of the two orders
    on real inputs. -/
theorem algebraic [Cert.KernelIdeal.Facts] [Cert.ReferenceIdeal.Facts] [Cert.Pre_finite_inputs.Facts] :
    Cert.algebraic_KernelIdeal_ReferenceIdeal := by
  intro m ρ m' ρ' hpre hagree
  have hOk : ∀ c, (Cert.KIn.inputs m c).Ok := fun c => Cert.PreDecode.ok_of_pre (Cert.KIn.inputs m c) (hpre c)
  refine ⟨fun c => (fun i => Cert.Spec.outK (Cert.KIn.inputs m c) (i 0) (i 1)), ?_, ?_⟩
  · exact (θ_run Cert.KernelIdeal.defs _ _).mono
      (fun _ h c => ⟨(h c).1.trans (Cert.KRegion1.result m ρ c (hOk c)), (h c).2⟩)
      (Cert.KernelIdeal.KRun.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v41_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]
    funext i
    exact (Cert.RefRead.val_eq (Cert.KIn.inputs m c) (hOk c) i).trans
      (Cert.Spec.outK_eq_outR (Cert.KIn.inputs m c) (hOk c) (i 0) (i 1)).symm

/-! ## The claim -/

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
